-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S1600000 32) (main_arg9 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg7 main_v34
  let main_c_13 : IVec S_ 32 := constantI S_ 32 100000#32
  let main_v36 : IVec S1600000 32 := broadcastInDim S1600000 ![] bcast_S_S1600000 main_c_13
  let main_v37 : IVec S1600000 1 := cmpi .slt main_arg7 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  let main_c_15 : IVec S_ 32 := constantI S_ 32 0#32
  let main_v41 : IVec S1600000 32 := broadcastInDim S1600000 ![] bcast_S_S1600000 main_c_15
  let main_v42 : IVec S1600000 1 := cmpi .sge main_arg9 main_v41
  let main_c_16 : IVec S_ 32 := constantI S_ 32 100000#32
  let main_v43 : IVec S1600000 32 := broadcastInDim S1600000 ![] bcast_S_S1600000 main_c_16
  let main_v44 : IVec S1600000 1 := cmpi .slt main_arg9 main_v43
  let main_v45 : IVec S1600000 1 := andi main_v42 main_v44
  let main_c_17 : IVec S_ 1 := constantI S_ 1 1#1
  let main_v46 : IVec S_ 1 := (fun x v => Host.reduce IntOp.andi x v reducesTo_S1600000_S_d0 h_S_) main_v45 main_c_17
  let main_v47 : IVec S_ 1 := andi main_v40 main_v46
  main_v47

def fn_part1 {F : FTy → Type} [FloatOps F] (main_arg4 : FVec F S128 .f32) (main_arg5 : FVec F S128x128 .f32) (main_arg6 : FVec F S128 .f32) (main_arg7 : IVec S1600000 32) (main_arg9 : IVec S1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg9 main_v33

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S128x128 .f32) (main_arg6 : FVec F S128 .f32) (main_arg7 : IVec S1600000 32) (main_arg8 : IVec S1600000 32) (main_arg9 : IVec S1600000 32) (main_arg10 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg9 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1 : Shape := ⟨1, ![1]⟩
abbrev S1x1 : Shape := ⟨2, ![1, 1]⟩
abbrev S1600000x128 : Shape := ⟨2, ![1600000, 128]⟩

abbrev nBuf : Space → Nat
  | .hbm => 119
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x1, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1, .i32⟩
  | .hbm, ⟨69, _⟩ => ⟨S_, .i32⟩
  | .hbm, ⟨70, _⟩ => ⟨S1600000x1, .i32⟩
  | .hbm, ⟨71, _⟩ => ⟨S1600000x1, .i1⟩
  | .hbm, ⟨72, _⟩ => ⟨S1x1, .i32⟩
  | .hbm, ⟨73, _⟩ => ⟨S1600000x1, .i32⟩
  | .hbm, ⟨74, _⟩ => ⟨S1600000x1, .i1⟩
  | .hbm, ⟨75, _⟩ => ⟨S1600000x1, .i1⟩
  | .hbm, ⟨76, _⟩ => ⟨S_, .i1⟩
  | .hbm, ⟨77, _⟩ => ⟨S1600000, .i1⟩
  | .hbm, ⟨78, _⟩ => ⟨S1600000x128, .f32⟩
  | .hbm, ⟨79, _⟩ => ⟨S1600000x128, .i1⟩
  | .hbm, ⟨80, _⟩ => ⟨S_, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1, .i32⟩
  | .hbm, ⟨99, _⟩ => ⟨S_, .i32⟩
  | .hbm, ⟨100, _⟩ => ⟨S1600000x1, .i32⟩
  | .hbm, ⟨101, _⟩ => ⟨S1600000x1, .i1⟩
  | .hbm, ⟨102, _⟩ => ⟨S1x1, .i32⟩
  | .hbm, ⟨103, _⟩ => ⟨S1600000x1, .i32⟩
  | .hbm, ⟨104, _⟩ => ⟨S1600000x1, .i1⟩
  | .hbm, ⟨105, _⟩ => ⟨S1600000x1, .i1⟩
  | .hbm, ⟨106, _⟩ => ⟨S_, .i1⟩
  | .hbm, ⟨107, _⟩ => ⟨S1600000, .i1⟩
  | .hbm, ⟨108, _⟩ => ⟨S1600000x128, .f32⟩
  | .hbm, ⟨109, _⟩ => ⟨S1600000x128, .i1⟩
  | .hbm, ⟨110, _⟩ => ⟨S_, .f32⟩
  | .hbm, ⟨111, _⟩ => ⟨S1600000x128, .f32⟩
  | .hbm, ⟨112, _⟩ => ⟨S1600000x128, .f32⟩
  | .hbm, ⟨113, _⟩ => ⟨S_, .f32⟩
  | .hbm, ⟨114, _⟩ => ⟨S100000x128, .f32⟩
  | .hbm, ⟨115, _⟩ => ⟨S1600000x1, .i32⟩
  | .hbm, ⟨116, _⟩ => ⟨S100000x128, .f32⟩
  | .hbm, ⟨117, _⟩ => ⟨S100000x1, .f32⟩
  | .hbm, ⟨118, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_9 : Ref sig .tc := ⟨.hbm, 43, rfl⟩
abbrev main_v22 : Ref sig .tc := ⟨.hbm, 44, rfl⟩
abbrev main_v23 : Ref sig .tc := ⟨.hbm, 45, rfl⟩
abbrev main_cst_10 : Ref sig .tc := ⟨.hbm, 46, rfl⟩
abbrev main_v24 : Ref sig .tc := ⟨.hbm, 47, rfl⟩
abbrev main_v25 : Ref sig .tc := ⟨.hbm, 48, rfl⟩
abbrev main_cst_11 : Ref sig .tc := ⟨.hbm, 49, rfl⟩
abbrev main_v26 : Ref sig .tc := ⟨.hbm, 50, rfl⟩
abbrev main_v27 : Ref sig .tc := ⟨.hbm, 51, rfl⟩
abbrev main_cst_12 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c_1 : Ref sig .tc := ⟨.hbm, 68, rfl⟩
abbrev main_call0_c_2 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_3 : Ref sig .tc := ⟨.hbm, 76, rfl⟩
abbrev main_call0_v12 : Ref sig .tc := ⟨.hbm, 77, rfl⟩
abbrev main_call0_v13 : Ref sig .tc := ⟨.hbm, 78, rfl⟩
abbrev main_call0_v14 : Ref sig .tc := ⟨.hbm, 79, rfl⟩
abbrev main_call0_cst : Ref sig .tc := ⟨.hbm, 80, rfl⟩
abbrev main_call0_v15 : Ref sig .tc := ⟨.hbm, 81, rfl⟩
abbrev main_v35 : Ref sig .tc := ⟨.hbm, 82, rfl⟩
abbrev main_cst_13 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v42 : Ref sig .tc := ⟨.hbm, 112, rfl⟩
abbrev main_cst_14 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_cst : Ref sig .tc := ⟨.hbm, 60, rfl⟩
abbrev main_call0_v0 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_cst : Ref sig .tc := ⟨.hbm, 108, rfl⟩
abbrev main_call1_v0 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.TakeOps.lean ====
import proofs.«429442_j68942815035830_3_alg».proof.Proof.Gen.KernelIdeal.Launch
import Idealize.ShloMosaic.PureOps.Ideal

noncomputable section

namespace Cert.KernelIdeal.TakeOps

open Cert.KernelIdeal Cert.KernelIdeal.Gen Idealize.ShloMosaic Idealize.ShloMosaic.TcCoe Idealize.SL.Sem

/-- The operations of hostOps1, each typed reference stated at its buffer's own type. -/
abbrev takeOps0 : List (HloOp τ sig (Elt Ideal)) :=
  [ StableHlo.TRef.nullary (StableHlo.TRef.of (T := (main_call0_c : Ref sig .tc).ty) main_call0_c rfl) (constantI S_ 32 0#32),
    StableHlo.TRef.unary (StableHlo.TRef.of (T := (main_call0_c : Ref sig .tc).ty) main_call0_c rfl) (StableHlo.TRef.of (T := (main_call0_v0 : Ref sig .tc).ty) main_call0_v0 rfl) (broadcastInDim S1600000 ![] bcast_S_S1600000),
    StableHlo.TRef.binary (StableHlo.TRef.of (T := (main_arg7 : Ref sig .tc).ty) main_arg7 rfl) (StableHlo.TRef.of (T := (main_call0_v0 : Ref sig .tc).ty) main_call0_v0 rfl) (StableHlo.TRef.of (T := (main_call0_v1 : Ref sig .tc).ty) main_call0_v1 rfl) (cmpi .slt),
    StableHlo.TRef.nullary (StableHlo.TRef.of (T := (main_call0_c_0 : Ref sig .tc).ty) main_call0_c_0 rfl) (constantI S_ 32 100000#32),
    StableHlo.TRef.unary (StableHlo.TRef.of (T := (main_call0_c_0 : Ref sig .tc).ty) main_call0_c_0 rfl) (StableHlo.TRef.of (T := (main_call0_v2 : Ref sig .tc).ty) main_call0_v2 rfl) (broadcastInDim S1600000 ![] bcast_S_S1600000),
    StableHlo.TRef.binary (StableHlo.TRef.of (T := (main_arg7 : Ref sig .tc).ty) main_arg7 rfl) (StableHlo.TRef.of (T := (main_call0_v2 : Ref sig .tc).ty) main_call0_v2 rfl) (StableHlo.TRef.of (T := (main_call0_v3 : Ref sig .tc).ty) main_call0_v3 rfl) addi,
    StableHlo.TRef.ternary (StableHlo.TRef.of (T := (main_call0_v1 : Ref sig .tc).ty) main_call0_v1 rfl) (StableHlo.TRef.of (T := (main_call0_v3 : Ref sig .tc).ty) main_call0_v3 rfl) (StableHlo.TRef.of (T := (main_arg7 : Ref sig .tc).ty) main_arg7 rfl) (StableHlo.TRef.of (T := (main_call0_v4 : Ref sig .tc).ty) main_call0_v4 rfl) select,
    StableHlo.TRef.unary (StableHlo.TRef.of (T := (main_call0_v4 : Ref sig .tc).ty) main_call0_v4 rfl) (StableHlo.TRef.of (T := (main_call0_v5 : Ref sig .tc).ty) main_call0_v5 rfl) (broadcastInDim S1600000x1 ![0] bcast_S1600000_S1600000x1_0),
    StableHlo.TRef.nullary (StableHlo.TRef.of (T := (main_call0_c_1 : Ref sig .tc).ty) main_call0_c_1 rfl) (constantI S1 32 99999#32),
    StableHlo.TRef.nullary (StableHlo.TRef.of (T := (main_call0_c_2 : Ref sig .tc).ty) main_call0_c_2 rfl) (constantI S_ 32 0#32),
    StableHlo.TRef.unary (StableHlo.TRef.of (T := (main_call0_c_2 : Ref sig .tc).ty) main_call0_c_2 rfl) (StableHlo.TRef.of (T := (main_call0_v6 : Ref sig .tc).ty) main_call0_v6 rfl) (broadcastInDim S1600000x1 ![] bcast_S_S1600000x1),
    StableHlo.TRef.binary (StableHlo.TRef.of (T := (main_call0_v5 : Ref sig .tc).ty) main_call0_v5 rfl) (StableHlo.TRef.of (T := (main_call0_v6 : Ref sig .tc).ty) main_call0_v6 rfl) (StableHlo.TRef.of (T := (main_call0_v7 : Ref sig .tc).ty) main_call0_v7 rfl) (cmpi .sge),
    StableHlo.TRef.unary (StableHlo.TRef.of (T := (main_call0_c_1 : Ref sig .tc).ty) main_call0_c_1 rfl) (StableHlo.TRef.of (T := (main_call0_v8 : Ref sig .tc).ty) main_call0_v8 rfl) (broadcastInDim S1x1 ![1] bcast_S1_S1x1_1),
    StableHlo.TRef.unary (StableHlo.TRef.of (T := (main_call0_v8 : Ref sig .tc).ty) main_call0_v8 rfl) (StableHlo.TRef.of (T := (main_call0_v9 : Ref sig .tc).ty) main_call0_v9 rfl) (broadcastInDim S1600000x1 ![0, 1] bcast_S1x1_S1600000x1_0_1),
    StableHlo.TRef.binary (StableHlo.TRef.of (T := (main_call0_v5 : Ref sig .tc).ty) main_call0_v5 rfl) (StableHlo.TRef.of (T := (main_call0_v9 : Ref sig .tc).ty) main_call0_v9 rfl) (StableHlo.TRef.of (T := (main_call0_v10 : Ref sig .tc).ty) main_call0_v10 rfl) (cmpi .sle),
    StableHlo.TRef.binary (StableHlo.TRef.of (T := (main_call0_v7 : Ref sig .tc).ty) main_call0_v7 rfl) (StableHlo.TRef.of (T := (main_call0_v10 : Ref sig .tc).ty) main_call0_v10 rfl) (StableHlo.TRef.of (T := (main_call0_v11 : Ref sig .tc).ty) main_call0_v11 rfl) andi,
    StableHlo.TRef.nullary (StableHlo.TRef.of (T := (main_call0_c_3 : Ref sig .tc).ty) main_call0_c_3 rfl) (constantI S_ 1 1#1),
    StableHlo.TRef.binary (StableHlo.TRef.of (T := (main_call0_v11 : Ref sig .tc).ty) main_call0_v11 rfl) (StableHlo.TRef.of (T := (main_call0_c_3 : Ref sig .tc).ty) main_call0_c_3 rfl) (StableHlo.TRef.of (T := (main_call0_v12 : Ref sig .tc).ty) main_call0_v12 rfl) (fun x v => Host.reduce IntOp.andi x v reducesTo_S1600000x1_S1600000_d1 h_S_),
    StableHlo.TRef.binary (StableHlo.TRef.of (T := (main_v34 : Ref sig .tc).ty) main_v34 rfl) (StableHlo.TRef.of (T := (main_call0_v5 : Ref sig .tc).ty) main_call0_v5 rfl) (StableHlo.TRef.of (T := (main_call0_v13 : Ref sig .tc).ty) main_call0_v13 rfl) (fun x i => Host.gather gather_S100000x128_S1600000x1_S1600000x128_1_0_n_n_0_1_1128 x i),
    StableHlo.TRef.unary (StableHlo.TRef.of (T := (main_call0_v12 : Ref sig .tc).ty) main_call0_v12 rfl) (StableHlo.TRef.of (T := (main_call0_v14 : Ref sig .tc).ty) main_call0_v14 rfl) (broadcastInDim S1600000x128 ![0] bcast_S1600000_S1600000x128_0),
    StableHlo.TRef.nullary (StableHlo.TRef.of (T := (main_call0_cst : Ref sig .tc).ty) main_call0_cst rfl) (constant (F := Ideal) S_ .f32 0x7FC00000#32),
    StableHlo.TRef.unary (StableHlo.TRef.of (T := (main_call0_cst : Ref sig .tc).ty) main_call0_cst rfl) (StableHlo.TRef.of (T := (main_call0_v15 : Ref sig .tc).ty) main_call0_v15 rfl) (broadcastInDim S1600000x128 ![] bcast_S_S1600000x128),
    StableHlo.TRef.ternary (StableHlo.TRef.of (T := (main_call0_v14 : Ref sig .tc).ty) main_call0_v14 rfl) (StableHlo.TRef.of (T := (main_call0_v13 : Ref sig .tc).ty) main_call0_v13 rfl) (StableHlo.TRef.of (T := (main_call0_v15 : Ref sig .tc).ty) main_call0_v15 rfl) (StableHlo.TRef.of (T := (main_v35 : Ref sig .tc).ty) main_v35 rfl) select ]

/-- The operations of hostOps2, each typed reference stated at its buffer's own type. -/
abbrev takeOps1 : List (HloOp τ sig (Elt Ideal)) :=
  [ StableHlo.TRef.nullary (StableHlo.TRef.of (T := (main_call1_c : Ref sig .tc).ty) main_call1_c rfl) (constantI S_ 32 0#32),
    StableHlo.TRef.unary (StableHlo.TRef.of (T := (main_call1_c : Ref sig .tc).ty) main_call1_c rfl) (StableHlo.TRef.of (T := (main_call1_v0 : Ref sig .tc).ty) main_call1_v0 rfl) (broadcastInDim S1600000 ![] bcast_S_S1600000),
    StableHlo.TRef.binary (StableHlo.TRef.of (T := (main_arg9 : Ref sig .tc).ty) main_arg9 rfl) (StableHlo.TRef.of (T := (main_call1_v0 : Ref sig .tc).ty) main_call1_v0 rfl) (StableHlo.TRef.of (T := (main_call1_v1 : Ref sig .tc).ty) main_call1_v1 rfl) (cmpi .slt),
    StableHlo.TRef.nullary (StableHlo.TRef.of (T := (main_call1_c_0 : Ref sig .tc).ty) main_call1_c_0 rfl) (constantI S_ 32 100000#32),
    StableHlo.TRef.unary (StableHlo.TRef.of (T := (main_call1_c_0 : Ref sig .tc).ty) main_call1_c_0 rfl) (StableHlo.TRef.of (T := (main_call1_v2 : Ref sig .tc).ty) main_call1_v2 rfl) (broadcastInDim S1600000 ![] bcast_S_S1600000),
    StableHlo.TRef.binary (StableHlo.TRef.of (T := (main_arg9 : Ref sig .tc).ty) main_arg9 rfl) (StableHlo.TRef.of (T := (main_call1_v2 : Ref sig .tc).ty) main_call1_v2 rfl) (StableHlo.TRef.of (T := (main_call1_v3 : Ref sig .tc).ty) main_call1_v3 rfl) addi,
    StableHlo.TRef.ternary (StableHlo.TRef.of (T := (main_call1_v1 : Ref sig .tc).ty) main_call1_v1 rfl) (StableHlo.TRef.of (T := (main_call1_v3 : Ref sig .tc).ty) main_call1_v3 rfl) (StableHlo.TRef.of (T := (main_arg9 : Ref sig .tc).ty) main_arg9 rfl) (StableHlo.TRef.of (T := (main_call1_v4 : Ref sig .tc).ty) main_call1_v4 rfl) select,
    StableHlo.TRef.unary (StableHlo.TRef.of (T := (main_call1_v4 : Ref sig .tc).ty) main_call1_v4 rfl) (StableHlo.TRef.of (T := (main_call1_v5 : Ref sig .tc).ty) main_call1_v5 rfl) (broadcastInDim S1600000x1 ![0] bcast_S1600000_S1600000x1_0),
    StableHlo.TRef.nullary (StableHlo.TRef.of (T := (main_call1_c_1 : Ref sig .tc).ty) main_call1_c_1 rfl) (constantI S1 32 99999#32),
    StableHlo.TRef.nullary (StableHlo.TRef.of (T := (main_call1_c_2 : Ref sig .tc).ty) main_call1_c_2 rfl) (constantI S_ 32 0#32),
    StableHlo.TRef.unary (StableHlo.TRef.of (T := (main_call1_c_2 : Ref sig .tc).ty) main_call1_c_2 rfl) (StableHlo.TRef.of (T := (main_call1_v6 : Ref sig .tc).ty) main_call1_v6 rfl) (broadcastInDim S1600000x1 ![] bcast_S_S1600000x1),
    StableHlo.TRef.binary (StableHlo.TRef.of (T := (main_call1_v5 : Ref sig .tc).ty) main_call1_v5 rfl) (StableHlo.TRef.of (T := (main_call1_v6 : Ref sig .tc).ty) main_call1_v6 rfl) (StableHlo.TRef.of (T := (main_call1_v7 : Ref sig .tc).ty) main_call1_v7 rfl) (cmpi .sge),
    StableHlo.TRef.unary (StableHlo.TRef.of (T := (main_call1_c_1 : Ref sig .tc).ty) main_call1_c_1 rfl) (StableHlo.TRef.of (T := (main_call1_v8 : Ref sig .tc).ty) main_call1_v8 rfl) (broadcastInDim S1x1 ![1] bcast_S1_S1x1_1),
    StableHlo.TRef.unary (StableHlo.TRef.of (T := (main_call1_v8 : Ref sig .tc).ty) main_call1_v8 rfl) (StableHlo.TRef.of (T := (main_call1_v9 : Ref sig .tc).ty) main_call1_v9 rfl) (broadcastInDim S1600000x1 ![0, 1] bcast_S1x1_S1600000x1_0_1),
    StableHlo.TRef.binary (StableHlo.TRef.of (T := (main_call1_v5 : Ref sig .tc).ty) main_call1_v5 rfl) (StableHlo.TRef.of (T := (main_call1_v9 : Ref sig .tc).ty) main_call1_v9 rfl) (StableHlo.TRef.of (T := (main_call1_v10 : Ref sig .tc).ty) main_call1_v10 rfl) (cmpi .sle),
    StableHlo.TRef.binary (StableHlo.TRef.of (T := (main_call1_v7 : Ref sig .tc).ty) main_call1_v7 rfl) (StableHlo.TRef.of (T := (main_call1_v10 : Ref sig .tc).ty) main_call1_v10 rfl) (StableHlo.TRef.of (T := (main_call1_v11 : Ref sig .tc).ty) main_call1_v11 rfl) andi,
    StableHlo.TRef.nullary (StableHlo.TRef.of (T := (main_call1_c_3 : Ref sig .tc).ty) main_call1_c_3 rfl) (constantI S_ 1 1#1),
    StableHlo.TRef.binary (StableHlo.TRef.of (T := (main_call1_v11 : Ref sig .tc).ty) main_call1_v11 rfl) (StableHlo.TRef.of (T := (main_call1_c_3 : Ref sig .tc).ty) main_call1_c_3 rfl) (StableHlo.TRef.of (T := (main_call1_v12 : Ref sig .tc).ty) main_call1_v12 rfl) (fun x v => Host.reduce IntOp.andi x v reducesTo_S1600000x1_S1600000_d1 h_S_),
    StableHlo.TRef.binary (StableHlo.TRef.of (T := (main_v41 : Ref sig .tc).ty) main_v41 rfl) (StableHlo.TRef.of (T := (main_call1_v5 : Ref sig .tc).ty) main_call1_v5 rfl) (StableHlo.TRef.of (T := (main_call1_v13 : Ref sig .tc).ty) main_call1_v13 rfl) (fun x i => Host.gather gather_S100000x128_S1600000x1_S1600000x128_1_0_n_n_0_1_1128 x i),
    StableHlo.TRef.unary (StableHlo.TRef.of (T := (main_call1_v12 : Ref sig .tc).ty) main_call1_v12 rfl) (StableHlo.TRef.of (T := (main_call1_v14 : Ref sig .tc).ty) main_call1_v14 rfl) (broadcastInDim S1600000x128 ![0] bcast_S1600000_S1600000x128_0),
    StableHlo.TRef.nullary (StableHlo.TRef.of (T := (main_call1_cst : Ref sig .tc).ty) main_call1_cst rfl) (constant (F := Ideal) S_ .f32 0x7FC00000#32),
    StableHlo.TRef.unary (StableHlo.TRef.of (T := (main_call1_cst : Ref sig .tc).ty) main_call1_cst rfl) (StableHlo.TRef.of (T := (main_call1_v15 : Ref sig .tc).ty) main_call1_v15 rfl) (broadcastInDim S1600000x128 ![] bcast_S_S1600000x128),
    StableHlo.TRef.ternary (StableHlo.TRef.of (T := (main_call1_v14 : Ref sig .tc).ty) main_call1_v14 rfl) (StableHlo.TRef.of (T := (main_call1_v13 : Ref sig .tc).ty) main_call1_v13 rfl) (StableHlo.TRef.of (T := (main_call1_v15 : Ref sig .tc).ty) main_call1_v15 rfl) (StableHlo.TRef.of (T := (main_v42 : Ref sig .tc).ty) main_v42 rfl) select ]

end Cert.KernelIdeal.TakeOps

end
-- ==== Proof.TakeInRange.lean ====
import proofs.«429442_j68942815035830_3_alg».proof.Proof.Gen.KernelIdeal
import proofs.«429442_j68942815035830_3_alg».proof.Proof.Gen.Pre_finite_inputs
import Idealize.ShloMosaic.Lib.StableHlo.Predicate
import Idealize.ShloMosaic.Lib.ReduceAll
import Idealize.ShloMosaic.Lib.ValueIdx

set_option maxRecDepth 16384

noncomputable section

namespace Cert.KernelIdeal.Take

open Cert.KernelIdeal Cert.KernelIdeal.Gen
open Idealize.ShloMosaic Idealize.ShloMosaic.TcCoe Idealize.ShloMosaic.ValueIdx

/-- Each index with a negative one counted from the end: `idx < 0 ? idx + 100000 : idx`, as a one-column matrix. -/
def wrapIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Which wrapped indices name a row: `0 ≤ i ≤ 99999`. -/
def rowMask (idx : IVec S1600000 32) : IVec S1600000 1 :=
  Host.reduce IntOp.andi
    (andi (cmpi .sge (wrapIdx idx) (broadcastInDim S1600000x1 ![] bcast_S_S1600000x1 (constantI S_ 32 0#32)))
          (cmpi .sle (wrapIdx idx) (broadcastInDim S1600000x1 ![0, 1] bcast_S1x1_S1600000x1_0_1
            (broadcastInDim S1x1 ![1] bcast_S1_S1x1_1 (constantI S1 32 99999#32)))))
    (constantI S_ 1 1#1) reducesTo_S1600000x1_S1600000_d1 h_S_

/-- The rows of `x` the indices name, a row of the not-a-number pattern where an index names none. -/
def takeFill (x : FVec Ideal S100000x128 .f32) (idx : IVec S1600000 32) : FVec Ideal S1600000x128 .f32 :=
  select (broadcastInDim S1600000x128 ![0] bcast_S1600000_S1600000x128_0 (rowMask idx))
    (Host.gather gather_S100000x128_S1600000x1_S1600000x128_1_0_n_n_0_1_1128 x (wrapIdx idx))
    (broadcastInDim S1600000x128 ![] bcast_S_S1600000x128 (constant (F := Ideal) S_ .f32 0x7FC00000#32))

/-- A left fold by `and` that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_one f hf l

/-- A reduce by `and` of an array of ones, from an initial value of ones, is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

/-- A broadcast read at an index is the operand read at some index. -/
theorem broadcastInDim_exists {α : Type} {s t : Shape} (dims : Fin s.rank → Fin t.rank) (h : s.BroadcastsInDim t dims)
    (x : s.Idx → α) (j : t.Idx) : ∃ k, broadcastInDim t dims h x j = x k := ⟨_, rfl⟩

/-- A word in [0, 100000), read signed, is not negative and is at most 99999. -/
theorem word_facts (v : BitVec 32) (h0 : IntOp.cmpi .sge v 0#32 = 1#1) (h1 : IntOp.cmpi .slt v 100000#32 = 1#1) :
    IntOp.cmpi .slt v 0#32 = 0#1 ∧ IntOp.cmpi .sle v 99999#32 = 1#1 := by
  have e0 : (0#32 : BitVec 32).toInt = 0 := by decide
  have e1 : (100000#32 : BitVec 32).toInt = 100000 := by decide
  have e2 : (99999#32 : BitVec 32).toInt = 99999 := by decide
  simp only [IntOp.cmpi, StableHlo.Predicate.ofBool_eq_one_iff, BitVec.sle, BitVec.slt, decide_eq_true_eq, e0, e1] at h0 h1
  constructor
  · have hf : v.slt 0#32 = false := by
      simp only [BitVec.slt, e0, decide_eq_false_iff_not]; omega
    show BitVec.ofBool (v.slt 0#32) = 0#1
    rw [hf]; rfl
  · have ht : v.sle 99999#32 = true := by
      simp only [BitVec.sle, e2, decide_eq_true_eq]; omega
    show BitVec.ofBool (v.sle 99999#32) = 1#1
    rw [ht]; rfl

/-- Under the range hypothesis a wrapped index is one of the given indices. -/
theorem wrapIdx_eq (idx : IVec S1600000 32)
    (h : ∀ e : S1600000.Idx, IntOp.cmpi .sge (idx e) 0#32 = 1#1 ∧ IntOp.cmpi .slt (idx e) 100000#32 = 1#1)
    (j : S1600000x1.Idx) : ∃ k : S1600000.Idx, wrapIdx idx j = idx k := by
  obtain ⟨k, hk⟩ := broadcastInDim_exists ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx) j
  refine ⟨k, hk.trans ?_⟩
  show Scalar.select (IntOp.cmpi .slt (idx k) 0#32) (IntOp.addi (idx k) 100000#32) (idx k) = idx k
  rw [(word_facts (idx k) (h k).1 (h k).2).1]
  exact select_zero _ _

/-- Under the range hypothesis every wrapped index names a row. -/
theorem rowMask_eq_one (idx : IVec S1600000 32)
    (h : ∀ e : S1600000.Idx, IntOp.cmpi .sge (idx e) 0#32 = 1#1 ∧ IntOp.cmpi .slt (idx e) 100000#32 = 1#1)
    (e : S1600000.Idx) : rowMask idx e = 1#1 := by
  unfold rowMask
  refine reduce_andi_of_all _ _ _ _ _ (fun j => ?_) (fun _ => rfl)
  obtain ⟨k, hk⟩ := wrapIdx_eq idx h j
  show IntOp.andi (IntOp.cmpi .sge (wrapIdx idx j) 0#32) (IntOp.cmpi .sle (wrapIdx idx j) 99999#32) = 1#1
  rw [hk]
  exact IntOp.andi_eq_one.2 ⟨(h k).1, (word_facts (idx k) (h k).1 (h k).2).2⟩

theorem takeFill_eq_gather (x : FVec Ideal S100000x128 .f32) (idx : IVec S1600000 32)
    (h : ∀ e : S1600000.Idx, IntOp.cmpi .sge (idx e) 0#32 = 1#1 ∧ IntOp.cmpi .slt (idx e) 100000#32 = 1#1) :
    takeFill x idx = Host.gather gather_S100000x128_S1600000x1_S1600000x128_1_0_n_n_0_1_1128 x (wrapIdx idx) := by
  funext i
  unfold takeFill
  rw [select_apply]
  obtain ⟨k, hk⟩ := broadcastInDim_exists ![0] bcast_S1600000_S1600000x128_0 (rowMask idx) i
  rw [hk, rowMask_eq_one idx h k]
  exact select_one _ _

/-- The rank-0 shape has one index. -/
instance subsingleton_scalar_idx : Subsingleton Cert.Pre_finite_inputs.S_.Idx := ⟨fun a b => funext fun d => d.elim0⟩

theorem src_inrange_of_pre (a0 : FVec Ideal Cert.Pre_finite_inputs.S100000x256 .f32) (a1 : FVec Ideal Cert.Pre_finite_inputs.S256x128 .f32)
    (a2 : FVec Ideal Cert.Pre_finite_inputs.S128 .f32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 a8 a9 a10 : IVec Cert.Pre_finite_inputs.S1600000 32)
    (h : Cert.Pre_finite_inputs.fn (F := Ideal) a0 a1 a2 a3 a4 a5 a6 a7 a8 a9 a10 = fun _ => 1#1) :
    (∀ e : S1600000.Idx, IntOp.cmpi .sge (a7 e) 0#32 = 1#1 ∧ IntOp.cmpi .slt (a7 e) 100000#32 = 1#1)
    ∧ (∀ e : S1600000.Idx, IntOp.cmpi .sge (a9 e) 0#32 = 1#1 ∧ IntOp.cmpi .slt (a9 e) 100000#32 = 1#1) := by
  have h0 := congrFun h (fun d => d.elim0)
  dsimp only [Cert.Pre_finite_inputs.fn, Cert.Pre_finite_inputs.fn_part1, Cert.Pre_finite_inputs.fn_part2] at h0
  obtain ⟨h07, h9⟩ := IntOp.andi_eq_one.1 h0
  obtain ⟨_, h7⟩ := IntOp.andi_eq_one.1 h07
  refine ⟨fun e => ?_, fun e => ?_⟩
  · exact IntOp.andi_eq_one.1 (Host.reduce_andi_all _ _ _ _ _ h7 e)
  · exact IntOp.andi_eq_one.1 (Host.reduce_andi_all _ _ _ _ _ h9 e)

end Cert.KernelIdeal.Take

end
-- ==== Proof.GcnSpec.lean ====
/-
  The mathematics of the three dense stages of a two-layer graph convolution, as whole-array functions on the
  extended reals, index by index.  N = 100000 nodes, 256 input features, 128 hidden features.

  * `embedScale`: the embedding `x · We + be`, each row scaled by that node's source-side degree weight, then
    multiplied by the first layer's weights: entry (r, c) is
      ∑ₖ ((∑ₗ x[r,l] · We[l,k]) + be[k]) · ns[r] · W[k,c].
  * `reluScale`: a layer's aggregated messages scaled by the destination-side weight, plus the bias, clamped at
    zero, then scaled by the next layer's source-side weight and multiplied by its weights: entry (r, c) is
      ∑ₖ max (a[r,k] · nd[r] + b[k]) 0 · ns[r] · W[k,c].
  * `reluOut`: the last layer's output: entry (r, c) is max (a[r,c] · nd[r] + b[c]) 0.

  The bias enters as a one-row matrix and each degree weight as a one-column matrix, which is how both programs
  hold them when these stages read them.
-/
import Idealize.ShloMosaic.PureOps.Ideal
import Idealize.ShloMosaic.Lib.ValueIdx

noncomputable section

namespace Cert.GcnSpec

open Idealize.ShloMosaic Idealize.ShloMosaic.ValueIdx

/-- A matrix of extended reals with `r` rows and `c` columns. -/
abbrev Mat (r c : Nat) : Type := (⟨2, ![r, c]⟩ : Shape).Idx → EReal

/-- The row of an index of an `r × c` matrix. -/
abbrev row {r c : Nat} (i : (⟨2, ![r, c]⟩ : Shape).Idx) : Fin r := ⟨(i 0).val, (i 0).isLt⟩
/-- The column of an index of an `r × c` matrix. -/
abbrev col {r c : Nat} (i : (⟨2, ![r, c]⟩ : Shape).Idx) : Fin c := ⟨(i 1).val, (i 1).isLt⟩

/-- Entry (r, k) of the embedding scaled by the source-side weight: `((x · We)[r,k] + be[k]) · ns[r]`. -/
def embedAt (x : Mat 100000 256) (We : Mat 256 128) (be : Mat 1 128) (ns : Mat 100000 1) (r : Fin 100000) (k : Fin 128) : EReal :=
  ((∑ l : Fin 256, x (ix2 r l) * We (ix2 l k)) + be (ix2 (0 : Fin 1) k)) * ns (ix2 r (0 : Fin 1))

/-- The embedding, scaled, times the first layer's weights. -/
def embedScale (x : Mat 100000 256) (We : Mat 256 128) (be : Mat 1 128) (ns : Mat 100000 1) (W : Mat 128 128) : Mat 100000 128 :=
  fun i => ∑ k : Fin 128, embedAt x We be ns (row i) k * W (ix2 k (col i))

/-- Entry (r, k) of a layer's activation: `max (a[r,k] · nd[r] + b[k]) 0`. -/
def reluAt (a : Mat 100000 128) (nd : Mat 100000 1) (b : Mat 1 128) (r : Fin 100000) (k : Fin 128) : EReal :=
  max (a (ix2 r k) * nd (ix2 r (0 : Fin 1)) + b (ix2 (0 : Fin 1) k)) 0

/-- A layer's activation, scaled by the next layer's source-side weight, times the next layer's weights. -/
def reluScale (a : Mat 100000 128) (nd : Mat 100000 1) (b : Mat 1 128) (ns : Mat 100000 1) (W : Mat 128 128) : Mat 100000 128 :=
  fun i => ∑ k : Fin 128, (reluAt a nd b (row i) k * ns (ix2 (row i) (0 : Fin 1))) * W (ix2 k (col i))

/-- The last layer's activation. -/
def reluOut (a : Mat 100000 128) (nd : Mat 100000 1) (b : Mat 1 128) : Mat 100000 128 :=
  fun i => reluAt a nd b (row i) (col i)

end Cert.GcnSpec

end
-- ==== Proof.Region0.lean ====
import proofs.«429442_j68942815035830_3_alg».proof.Proof.Gen.KernelIdeal.Frame
import proofs.«429442_j68942815035830_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-! ## The two products, each read at an index as a plain sum -/

theorem lhs_embed_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_embed_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_embed_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_embed_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The embedding product into the zero accumulator, at (p, q): the sum over the 256 input features. -/
theorem matmul_embed_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ l : Fin 256, a (ix2 p l) * b (ix2 l q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_embed_0 _ _
    | ⟨1, _⟩ => exact (lhs_embed_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_embed_0 _ _).trans hk
    | ⟨1, _⟩ => exact rhs_embed_1 _ _)
  rw [el, er]

theorem lhs_layer_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_layer_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_layer_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_layer_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The layer product into the zero accumulator, at (p, q): the sum over the 128 hidden features. -/
theorem matmul_layer_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_layer_0 _ _
    | ⟨1, _⟩ => exact (lhs_layer_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_layer_0 _ _).trans hk
    | ⟨1, _⟩ => exact rhs_layer_1 _ _)
  rw [el, er]

/-! ## The payload at an index -/

/-- An `[a, 1]` column broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's one stored value at (p, q) of the block: the embedding of row p, plus the bias, scaled by the row's
    weight, times the layer's weights. -/
theorem payload_apply (x0 : Vec Ideal S5000x256 .f32) (x1 : Vec Ideal S256x128 .f32) (x2 : Vec Ideal S1x128 .f32)
    (x3 : Vec Ideal S5000x1 .f32) (x4 : Vec Ideal S128x128 .f32) (p : Fin 5000) (q : Fin 128) :
    k0_pay1 (F := Ideal) x0 x1 x2 x3 x4 (ix2 p q)
      = ∑ k : Fin 128, (((∑ l : Fin 256, x0 (ix2 p l) * x1 (ix2 l k)) + x2 (ix2 (0 : Fin 1) k)) * x3 (ix2 p (0 : Fin 1))) * x4 (ix2 k q) := by
  unfold k0_pay1
  rw [matmul_layer_apply]
  refine Finset.sum_congr rfl fun k _ => ?_
  rw [truncf_apply, truncf_apply, mulf_apply, addf_apply, matmul_embed_apply, shapeCast_self, shapeCast_self,
    broadcastTo_1b_ab_apply, broadcastTo_a1_ab_apply]
  simp only [truncf_apply]

/-! ## From the blocks to the array -/

/-- The index maps over the grid: the row-blocked windows (the features, the weights' column, the result) are at
    block (t, 0) at point t, the whole-array windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The feature block at point t is rows 5000 t … 5000 t + 4999 of the feature array. -/
theorem features_block (c : Dev nD) (t : Fin cfg0.N) (p : Fin 5000) (l : Fin 256) (r : Fin 100000)
    (hr : r.val = 5000 * t.val + p.val) :
    (iblk0 V c 0 t : Vec Ideal S5000x256 .f32) (ix2 p l) = (V c main_arg0 : S100000x256.Idx → EReal) (ix2 r l) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * l.val = l.val; rw [e1]; omega

/-- The embedding weights' block at every point is the whole array. -/
theorem embed_weights_block (c : Dev nD) (t : Fin cfg0.N) (l : Fin 256) (k : Fin 128) :
    (iblk0 V c 1 t : Vec Ideal S256x128 .f32) (ix2 l k) = (V c main_arg1 : S256x128.Idx → EReal) (ix2 l k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 256 + 1 * l.val = l.val; rw [e0]; omega
  | ⟨1, _⟩ => show win0_1.index t (1 : Fin 2) * 128 + 1 * k.val = k.val; rw [e1]; omega

/-- The bias row's block at every point is the whole row. -/
theorem bias_block (c : Dev nD) (t : Fin cfg0.N) (u : Fin 1) (k : Fin 128) :
    (iblk0 V c 2 t : Vec Ideal S1x128 .f32) (ix2 u k) = (V c main_v30 : S1x128.Idx → EReal) (ix2 u k) := by
  obtain ⟨-, -, -, -, e0, e1, -⟩ := idx_facts t
  unfold iblk0
  rw [View.read_apply]
  show V c main_v30 _ = V c main_v30 _
  congr 1
  funext a
  apply Fin.ext
  match a with
  | ⟨0, _⟩ => show win0_2.index t (0 : Fin 2) * 1 + 1 * u.val = u.val; rw [e0]; omega
  | ⟨1, _⟩ => show win0_2.index t (1 : Fin 2) * 128 + 1 * k.val = k.val; rw [e1]; omega

/-- The weight column's block at point t is rows 5000 t … 5000 t + 4999 of the column. -/
theorem scale_block (c : Dev nD) (t : Fin cfg0.N) (p : Fin 5000) (u : Fin 1) (r : Fin 100000)
    (hr : r.val = 5000 * t.val + p.val) :
    (iblk0 V c 3 t : Vec Ideal S5000x1 .f32) (ix2 p u) = (V c main_v33 : S100000x1.Idx → EReal) (ix2 r u) := by
  obtain ⟨-, -, -, -, -, -, e0, e1, -⟩ := idx_facts t
  unfold iblk0
  rw [View.read_apply]
  show V c main_v33 _ = V c main_v33 _
  congr 1
  funext a
  apply Fin.ext
  match a with
  | ⟨0, _⟩ => show win0_3.index t (0 : Fin 2) * 5000 + 1 * p.val = r.val; rw [e0, hr]; omega
  | ⟨1, _⟩ => show win0_3.index t (1 : Fin 2) * 1 + 1 * u.val = u.val; rw [e1]; omega

/-- The layer weights' block at every point is the whole array. -/
theorem layer_weights_block (c : Dev nD) (t : Fin cfg0.N) (k : Fin 128) (q : Fin 128) :
    (iblk0 V c 4 t : Vec Ideal S128x128 .f32) (ix2 k q) = (V c main_arg3 : S128x128.Idx → EReal) (ix2 k q) := by
  obtain ⟨-, -, -, -, -, -, -, -, e0, e1, -⟩ := idx_facts t
  unfold iblk0
  rw [View.read_apply]
  show V c main_arg3 _ = V c main_arg3 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The body's stored value at point t, at (p, q) of the block, is the specification at row 5000 t + p, column q. -/
theorem point_value (c : Dev nD) (t : Fin cfg0.N) (p : Fin 5000) (q : Fin 128) (i : S100000x128.Idx)
    (hi0 : (i 0).val = 5000 * t.val + p.val) (hi1 : (i 1).val = q.val) :
    k0_pay1 (F := Ideal) (iblk0 V c 0 t) (iblk0 V c 1 t) (iblk0 V c 2 t) (iblk0 V c 3 t) (iblk0 V c 4 t) (ix2 p q)
      = embedScale (V c main_arg0) (V c main_arg1) (V c main_v30) (V c main_v33) (V c main_arg3) i := by
  rw [payload_apply (iblk0 V c 0 t) (iblk0 V c 1 t) (iblk0 V c 2 t) (iblk0 V c 3 t) (iblk0 V c 4 t) p q]
  unfold embedScale embedAt
  refine Finset.sum_congr rfl fun k _ => ?_
  have hq : q = col i := Fin.ext hi1.symm
  rw [bias_block V c t 0 k, scale_block V c t p 0 (row i) hi0, layer_weights_block V c t k q, hq]
  congr 3
  refine Finset.sum_congr rfl fun l _ => ?_
  rw [features_block V c t p l (row i) hi0, embed_weights_block V c t l k]

/-- What point t writes back is block t of the specification's array. -/
theorem flushed_eq (c : Dev nD) (t : Fin cfg0.N) :
    (dat0 (F := Ideal) V c).flushed 5 t = ((cfg0.win 5).blk t).view.read (Elt Ideal)
      (embedScale (V c main_arg0) (V c main_arg1) (V c main_v30) (V c main_v33) (V c main_arg3)) := by
  show (cfg0.win 5).cut (grid0.coords t) ((dat0 (F := Ideal) V c).after 5 t) = _
  rw [after0_5]
  unfold out0_5
  rw [View.canon_unit_zero hz]
  simp only [View.ld_unit_zero (S := S5000x256) hz, View.ld_unit_zero (S := S256x128) hz, View.ld_unit_zero (S := S1x128) hz,
    View.ld_unit_zero (S := S5000x1) hz, View.ld_unit_zero (S := S128x128) hz]
  obtain ⟨-, -, -, -, -, -, -, -, -, -, e0, e1, -⟩ := idx_facts t
  funext j
  show k0_pay1 (F := Ideal) (iblk0 V c 0 t) (iblk0 V c 1 t) (iblk0 V c 2 t) (iblk0 V c 3 t) (iblk0 V c 4 t) j
    = embedScale (V c main_arg0) (V c main_arg1) (V c main_v30) (V c main_v33) (V c main_arg3) (((cfg0.win 5).blk t).view.emb j)
  have hj : (j : S5000x128.Idx) = ix2 (j 0) (j 1) := eq_ix2 (n0 := 5000) (n1 := 128) j
  refine (congrArg (k0_pay1 (F := Ideal) (iblk0 V c 0 t) (iblk0 V c 1 t) (iblk0 V c 2 t) (iblk0 V c 3 t) (iblk0 V c 4 t)) hj).trans ?_
  refine point_value V c t (j 0) (j 1) _ ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Every index of the array is in some point's block: row r is in block r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after all 20 points is the specification's array of the region's input arrays. -/
theorem final0 (c : Dev nD) :
    (dat0 (F := Ideal) V c).arrAt 5 cfg0.N = embedScale (V c main_arg0) (V c main_arg1) (V c main_v30) (V c main_v33) (V c main_arg3) :=
  (dat0 (F := Ideal) V c).arrAt_eq_of_cover 5
    (embedScale (V c main_arg0) (V c main_arg1) (V c main_v30) (V c main_v33) (V c main_arg3))
    (fun t _ => flushed_eq V c t) covered

end Cert.KernelIdeal.Region0

end
-- ==== Proof.Region1.lean ====
import proofs.«429442_j68942815035830_3_alg».proof.Proof.Gen.KernelIdeal.Frame
import proofs.«429442_j68942815035830_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as the constant function. -/
theorem offsets_zero : (![0, 0] : Fin 2 → Nat) = fun _ => 0 := funext fun a => by fin_cases a <;> rfl

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction of the block product: rows of the left operand against columns of the weights -/

theorem lhs_axis0 (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
theorem rhs_axis0 (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem rhs_axis1 (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at `(p, q)`: row `p` of the left operand against column `q` of
    the right one. -/
theorem blockProduct_apply (y : FVec Ideal S5000x128 .bf16) (w : FVec Ideal S128x128 .bf16) (p : Fin 5000) (q : Fin 128) :
    FloatOps.matmul dot_S5000x128_S128x128_S5000x128_1_0_0_1_n_n none y w (constant S5000x128 .f32 0x00000000#32) (ix2 p q)
      = ∑ k : Fin 128, y (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's arithmetic read at `(p, q)` of the output block: the activation `max (a·nd + b) 0` of row `p`, scaled
    by that row's source-side weight, against column `q` of the weights. -/
theorem payload_apply (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k1_pay1 (F := Ideal) x0 x1 x2 x3 x4 (ix2 p q)
      = ∑ k : Fin 128, (max (x0 (ix2 p k) * x1 (ix2 p (0 : Fin 1)) + x2 (ix2 (0 : Fin 1) k)) 0 * x3 (ix2 p (0 : Fin 1))) * x4 (ix2 k q) := by
  unfold k1_pay1
  simp only [matmul]
  rw [blockProduct_apply]
  refine Finset.sum_congr rfl fun k _ => ?_
  simp only [truncf_apply, mulf_apply, maximumf_apply, addf_apply, broadcast_apply, shapeCast_self,
    broadcastTo_a1_ab_apply, broadcastTo_1b_ab_apply]
  rw [show (Scalar.ofBits (F := Ideal) .f32 0x00000000#32 : EReal) = 0 from Ideal.ofBits_zero_f32]

/-! ## The grid: which block of each array a point reads or writes -/

/-- The block indices of the six windows at a point, decided over the 20 points: the row-blocked arrays are at block
    `(t, 0)`, the bias row and the weights at block `(0, 0)`. -/
theorem blockIndex_facts : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block of the output is some point's. -/
theorem blockIndex_onto : ∀ b : Fin 20, ∃ t : Fin cfg1.N, t.val = b.val :=
  (by decide +kernel : ∀ b : Fin 20, ∃ t : Fin grid1.N, t.val = b.val)

/-! ## The input blocks as entries of the arrays -/

/-- The aggregated-messages block at point `t` is rows `5000 t … 5000 t + 4999` of the array. -/
theorem aggBlock_apply (c : Dev nD) (t : Fin cfg1.N) (p : Fin 5000) (k : Fin 128) (r : Fin 100000)
    (hr : r.val = t.val * 5000 + p.val) :
    (iblk1 (F := Ideal) V c 0 t : Vec Ideal S5000x128 .f32) (ix2 p k) = (V c main_v38 : S100000x128.Idx → EReal) (ix2 r k) := by
  obtain ⟨hN, e00, e01, -⟩ := blockIndex_facts t
  unfold iblk1
  rw [View.read_apply]
  show V c main_v38 _ = V c main_v38 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The destination-side weight block at point `t` is rows `5000 t … 5000 t + 4999` of the column. -/
theorem ndBlock_apply (c : Dev nD) (t : Fin cfg1.N) (p : Fin 5000) (r : Fin 100000)
    (hr : r.val = t.val * 5000 + p.val) :
    (iblk1 (F := Ideal) V c 1 t : Vec Ideal S5000x1 .f32) (ix2 p (0 : Fin 1)) = (V c main_v39 : S100000x1.Idx → EReal) (ix2 r (0 : Fin 1)) := by
  obtain ⟨hN, -, -, e10, e11, -⟩ := blockIndex_facts t
  unfold iblk1
  rw [View.read_apply]
  show V c main_v39 _ = V c main_v39 _
  congr 1
  funext a
  apply Fin.ext
  match a with
  | ⟨0, _⟩ => show win1_1.index t (0 : Fin 2) * 5000 + 1 * p.val = r.val; omega
  | ⟨1, _⟩ => show win1_1.index t (1 : Fin 2) * 1 + 1 * 0 = 0; omega

/-- The bias block at every point is the whole one-row array. -/
theorem biasBlock_apply (c : Dev nD) (t : Fin cfg1.N) (k : Fin 128) :
    (iblk1 (F := Ideal) V c 2 t : Vec Ideal S1x128 .f32) (ix2 (0 : Fin 1) k) = (V c main_v31 : S1x128.Idx → EReal) (ix2 (0 : Fin 1) k) := by
  obtain ⟨hN, -, -, -, -, e20, e21, -⟩ := blockIndex_facts t
  unfold iblk1
  rw [View.read_apply]
  show V c main_v31 _ = V c main_v31 _
  congr 1
  funext a
  apply Fin.ext
  match a with
  | ⟨0, _⟩ => show win1_2.index t (0 : Fin 2) * 1 + 1 * 0 = 0; omega
  | ⟨1, _⟩ => show win1_2.index t (1 : Fin 2) * 128 + 1 * k.val = k.val; omega

/-- The source-side weight block at point `t` is rows `5000 t … 5000 t + 4999` of the column. -/
theorem nsBlock_apply (c : Dev nD) (t : Fin cfg1.N) (p : Fin 5000) (r : Fin 100000)
    (hr : r.val = t.val * 5000 + p.val) :
    (iblk1 (F := Ideal) V c 3 t : Vec Ideal S5000x1 .f32) (ix2 p (0 : Fin 1)) = (V c main_v40 : S100000x1.Idx → EReal) (ix2 r (0 : Fin 1)) := by
  obtain ⟨hN, -, -, -, -, -, -, e30, e31, -⟩ := blockIndex_facts t
  unfold iblk1
  rw [View.read_apply]
  show V c main_v40 _ = V c main_v40 _
  congr 1
  funext a
  apply Fin.ext
  match a with
  | ⟨0, _⟩ => show win1_3.index t (0 : Fin 2) * 5000 + 1 * p.val = r.val; omega
  | ⟨1, _⟩ => show win1_3.index t (1 : Fin 2) * 1 + 1 * 0 = 0; omega

/-- The weights block at every point is the whole matrix. -/
theorem weightBlock_apply (c : Dev nD) (t : Fin cfg1.N) (k q : Fin 128) :
    (iblk1 (F := Ideal) V c 4 t : Vec Ideal S128x128 .f32) (ix2 k q) = (V c main_arg5 : S128x128.Idx → EReal) (ix2 k q) := by
  obtain ⟨hN, -, -, -, -, -, -, -, -, e40, e41, -⟩ := blockIndex_facts t
  unfold iblk1
  rw [View.read_apply]
  show V c main_arg5 _ = V c main_arg5 _
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-! ## What a point writes back, and the whole array -/

/-- WHAT POINT `t` WRITES BACK is block `t` of the specification's array of the region's input arrays. -/
theorem flushed_eq (c : Dev nD) (t : Fin cfg1.N) :
    (dat1 (F := Ideal) V c).flushed 5 t = ((cfg1.win 5).blk t).view.read (Elt Ideal)
      (reluScale (V c main_v38) (V c main_v39) (V c main_v31) (V c main_v40) (V c main_arg5)) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S5000x1) offsets_zero,
    View.ld_unit_zero (S := S1x128) offsets_zero, View.ld_unit_zero (S := S128x128) offsets_zero]
  obtain ⟨hN, -, -, -, -, -, -, -, -, -, -, e50, e51⟩ := blockIndex_facts t
  funext j
  obtain ⟨p, q, rfl⟩ : ∃ (p : Fin 5000) (q : Fin 128), j = ix2 p q := ⟨j 0, j 1, eq_ix2 j⟩
  have hp : p.val < 5000 := p.isLt
  let r : Fin 100000 := ⟨t.val * 5000 + p.val, by omega⟩
  have hr : r.val = t.val * 5000 + p.val := rfl
  have hi : ((cfg1.win 5).blk t).view.emb (ix2 p q) = (ix2 r q : S100000x128.Idx) := by
    funext a
    apply Fin.ext
    match a with
    | ⟨0, _⟩ => show win1_5.index t (0 : Fin 2) * 5000 + 1 * p.val = r.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = reluScale (V c main_v38) (V c main_v39) (V c main_v31) (V c main_v40) (V c main_arg5) (((cfg1.win 5).blk t).view.emb (ix2 p q))
  rw [hi, payload_apply (iblk1 V c 0 t) (iblk1 V c 1 t) (iblk1 V c 2 t) (iblk1 V c 3 t) (iblk1 V c 4 t) p q]
  show _ = ∑ k : Fin 128, (reluAt (V c main_v38) (V c main_v39) (V c main_v31) r k * (V c main_v40 : S100000x1.Idx → EReal) (ix2 r (0 : Fin 1)))
      * (V c main_arg5 : S128x128.Idx → EReal) (ix2 k q)
  refine Finset.sum_congr rfl fun k _ => ?_
  rw [aggBlock_apply V c t p k r hr, ndBlock_apply V c t p r hr, biasBlock_apply V c t k, nsBlock_apply V c t p r hr,
    weightBlock_apply V c t k q]
  rfl

/-- An index of the array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- The row blocks tile the array: row `r` is in the block of point `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := blockIndex_onto ⟨(i 0).val / 5000, by omega⟩
  have ht' : t.val = (i 0).val / 5000 := ht
  obtain ⟨hN, -, -, -, -, -, -, -, -, -, -, e50, e51⟩ := blockIndex_facts t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem final1 (c : Dev nD) :
    (dat1 (F := Ideal) V c).arrAt 5 cfg1.N = reluScale (V c main_v38) (V c main_v39) (V c main_v31) (V c main_v40) (V c main_arg5) := by
  exact (dat1 (F := Ideal) V c).arrAt_eq_of_cover 5
    (reluScale (V c main_v38) (V c main_v39) (V c main_v31) (V c main_v40) (V c main_arg5))
    (fun t _ => flushed_eq V c t) covered

end Cert.KernelIdeal.Region1

end
-- ==== Proof.Region2.lean ====
import proofs.«429442_j68942815035830_3_alg».proof.Proof.Gen.KernelIdeal.Frame
import proofs.«429442_j68942815035830_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- A one-column matrix broadcast along its rows reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at entry (p, q) of a block: max (a[p,q] · nd[p] + b[q]) 0. -/
theorem pay_apply (x0 : Vec Ideal S5000x128 .f32) (x1 : Vec Ideal S5000x1 .f32) (x2 : Vec Ideal S1x128 .f32)
    (p : Fin 5000) (q : Fin 128) :
    k2_pay1 x0 x1 x2 (ix2 p q) = max (x0 (ix2 p q) * x1 (ix2 p (0 : Fin 1)) + x2 (ix2 (0 : Fin 1) q)) 0 := by
  unfold k2_pay1
  simp only [shapeCast_self]
  rw [maximumf_apply, addf_apply, mulf_apply, broadcastTo_a1_ab_apply, broadcastTo_1b_ab_apply, broadcast_apply]
  show max _ (Ideal.ofBits .f32 0x00000000#32) = _
  rw [Ideal.ofBits_zero_f32]

/-- Entry (p, q) of the body's result on three blocks is the activation at array index i, once each block entry
    the arithmetic reads is the array entry the activation reads there. -/
theorem pay_eq_reluOut (a : Mat 100000 128) (nd : Mat 100000 1) (b : Mat 1 128)
    (x0 : Vec Ideal S5000x128 .f32) (x1 : Vec Ideal S5000x1 .f32) (x2 : Vec Ideal S1x128 .f32)
    (p : Fin 5000) (q : Fin 128) (i : S100000x128.Idx)
    (h0 : x0 (ix2 p q) = a (ix2 (row i) (col i)))
    (h1 : x1 (ix2 p (0 : Fin 1)) = nd (ix2 (row i) (0 : Fin 1)))
    (h2 : x2 (ix2 (0 : Fin 1) q) = b (ix2 (0 : Fin 1) (col i))) :
    k2_pay1 x0 x1 x2 (ix2 p q) = reluOut a nd b i := by
  rw [pay_apply, h0, h1, h2]
  rfl

/-- The windows' block indices at every grid point: the row-blocked windows sit at block (t, 0), the bias window at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the activation of the region's input arrays. -/
theorem flushed_eq (c : Dev nD) (t : Fin cfg2.N) :
    (dat2 (F := Ideal) V c).flushed 3 t
      = ((cfg2.win 3).blk t).view.read (Elt Ideal) (reluOut (V c main_v45) (V c main_v46) (V c main_v32)) := by
  show (cfg2.win 3).cut (grid2.coords t) ((dat2 (F := Ideal) V c).after 3 t) = _
  rw [after2_3]
  unfold out2_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := idx_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = reluOut (V c main_v45) (V c main_v46) (V c main_v32) (((cfg2.win 3).blk t).view.emb (ix2 p q))
  refine pay_eq_reluOut _ _ _ _ _ _ p q _ ?_ ?_ ?_
  · show V c main_v45 (((cfg2.win 0).blk t).view.emb (ix2 p q)) = V c main_v45 _
    refine congrArg (V c main_v45) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  · show V c main_v46 (((cfg2.win 1).blk t).view.emb (ix2 p (0 : Fin 1))) = V c main_v46 _
    refine congrArg (V c main_v46) (funext fun a => Fin.ext ?_)
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  · show V c main_v32 (((cfg2.win 2).blk t).view.emb (ix2 (0 : Fin 1) q)) = V c main_v32 _
    refine congrArg (V c main_v32) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An index of the output array is in point t's block iff each coordinate is in the block's range on its axis. -/
theorem mem_blk (t : Fin cfg2.N) (i : S100000x128.Idx) :
    i ∈ ((cfg2.win 3).blk t).view.set
      ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- Every index of the output array is in the block of the point its row falls to: row r is in block r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by show (i 0).val / 5000 < 20; omega⟩
  have ht : t.val = (i 0).val / 5000 := rfl
  obtain ⟨e00, e01, e10, e11, e20, e21, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After all 20 grid points the output array holds the last layer's activation of the region's input arrays: every
    point writes back its block of it, and the 20 blocks of 5000 rows cover the 100000 rows. -/
theorem final2 (c : Dev nD) :
    (dat2 (F := Ideal) V c).arrAt 3 cfg2.N = reluOut (V c main_v45) (V c main_v46) (V c main_v32) := by
  exact (dat2 (F := Ideal) V c).arrAt_eq_of_cover 3 (reluOut (V c main_v45) (V c main_v46) (V c main_v32))
    (fun t _ => flushed_eq V c t) cover

end Cert.KernelIdeal.Region2

end
-- ==== Proof.KernelValue.lean ====
/-
  The kernel program's result buffer, read back through its run.  The program is five stretches of host operations
  around three dense stages.  Each stretch is read once, over ANY contents it starts from: which buffers it leaves
  alone, and what it writes as a function of what it reads (the degree weights, the biases as one-row matrices and
  the weights as one-column matrices before the first stage; a gather of rows and a sum at destination rows before
  each of the other two).  Each dense stage leaves its output array at the whole-array function of its input arrays
  (the three stage modules) and every other buffer as it found it.  Chaining these from the launch memory names the
  result: `result m c`.
-/
import proofs.«429442_j68942815035830_3_alg».proof.Proof.KernelRun
import proofs.«429442_j68942815035830_3_alg».proof.Proof.TakeOps
import proofs.«429442_j68942815035830_3_alg».proof.Proof.TakeInRange
import proofs.«429442_j68942815035830_3_alg».proof.Proof.GcnSpec
import proofs.«429442_j68942815035830_3_alg».proof.Proof.Region0
import proofs.«429442_j68942815035830_3_alg».proof.Proof.Region1
import proofs.«429442_j68942815035830_3_alg».proof.Proof.Region2
import Idealize.ShloMosaic.Lib.StableHlo.Run

set_option maxRecDepth 16384

noncomputable section

namespace Cert.KernelIdeal.Value

open Cert.KernelIdeal Cert.KernelIdeal.Gen Cert.KernelIdeal.Take Cert.KernelIdeal.TakeOps Cert.GcnSpec
open Idealize.ShloMosaic Idealize.ShloMosaic.TcCoe Idealize.ShloMosaic.Tactic Idealize.ShloMosaic.StableHlo
open Idealize.SL Idealize.SL.Sem

/-- A node's degree weight: the number of edges whose index word names the node (an index naming no node counts
    nowhere), at least one, to the power -1/2. -/
def degWeight (idx : IVec S1600000 32) : FVec Ideal S100000 .f32 :=
  Host.powf
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- A weight vector as a one-column matrix. -/
abbrev asCol (w : FVec Ideal S100000 .f32) : FVec Ideal S100000x1 .f32 :=
  broadcastInDim S100000x1 ![0] bcast_S100000_S100000x1_0 w
/-- A bias vector as a one-row matrix. -/
abbrev asRow (b : FVec Ideal S128 .f32) : FVec Ideal S1x128 .f32 :=
  broadcastInDim S1x128 ![1] bcast_S128_S1x128_1 b

variable (B : Valuation τ sig (Elt Ideal))

/-! ## The two gather stretches with every typed reference at its buffer's own type -/

/-- Transport along a buffer's own type is the identity. -/
theorem toBuf_self (r : Ref sig .tc) (h2 : r.space ≠ .host) (h3 : r.isScoped = false) (v : r.ty.Contents (Elt Ideal)) :
    (StableHlo.TRef.of (T := r.ty) r rfl h2 h3).toBuf v = v := eq_of_heq (cast_heq _ _)
theorem ofBuf_self (r : Ref sig .tc) (h2 : r.space ≠ .host) (h3 : r.isScoped = false) (v : r.ty.Contents (Elt Ideal)) :
    (StableHlo.TRef.of (T := r.ty) r rfl h2 h3).ofBuf v = v := eq_of_heq (cast_heq _ _)

/-- The first gather's operations are the restated list. -/
theorem hostOps1_eq : (hostOps1 (F := Ideal)) = takeOps0 := rfl
/-- The second gather's operations are the restated list. -/
theorem hostOps2_eq : (hostOps2 (F := Ideal)) = takeOps1 := rfl

/-! ## Each stretch of host operations, over any starting contents -/

/-! ### `hostOps0` over any starting contents -/

set_option maxHeartbeats 2000000 in
theorem pre_v30 : after (hostOps0 (F := Ideal)) B (Proc.devRef .tc main_v30) = asRow (B (Proc.devRef .tc main_arg2)) := by
  simp only [hostOps0]; after_results_simp <;> rfl
set_option maxHeartbeats 2000000 in
theorem pre_v31 : after (hostOps0 (F := Ideal)) B (Proc.devRef .tc main_v31) = asRow (B (Proc.devRef .tc main_arg4)) := by
  simp only [hostOps0]; after_results_simp <;> rfl
set_option maxHeartbeats 2000000 in
theorem pre_v32 : after (hostOps0 (F := Ideal)) B (Proc.devRef .tc main_v32) = asRow (B (Proc.devRef .tc main_arg6)) := by
  simp only [hostOps0]; after_results_simp <;> rfl
set_option maxHeartbeats 2000000 in
theorem pre_v33 : after (hostOps0 (F := Ideal)) B (Proc.devRef .tc main_v33) = asCol (degWeight (B (Proc.devRef .tc main_arg7))) := by
  simp only [hostOps0]; after_results_simp <;> rfl
set_option maxHeartbeats 2000000 in
theorem pre_v14 : after (hostOps0 (F := Ideal)) B (Proc.devRef .tc main_v14) = degWeight (B (Proc.devRef .tc main_arg8)) := by
  simp only [hostOps0]; after_results_simp <;> rfl
set_option maxHeartbeats 2000000 in
theorem pre_v25 : after (hostOps0 (F := Ideal)) B (Proc.devRef .tc main_v25) = degWeight (B (Proc.devRef .tc main_arg9)) := by
  simp only [hostOps0]; after_results_simp <;> rfl
set_option maxHeartbeats 2000000 in
theorem pre_v29 : after (hostOps0 (F := Ideal)) B (Proc.devRef .tc main_v29) = degWeight (B (Proc.devRef .tc main_arg10)) := by
  simp only [hostOps0]; after_results_simp <;> rfl
set_option maxHeartbeats 2000000 in
theorem pre_arg0 : after (hostOps0 (F := Ideal)) B (Proc.devRef .tc main_arg0) = B (Proc.devRef .tc main_arg0) := by
  simp only [hostOps0]; after_results_simp <;> rfl
set_option maxHeartbeats 2000000 in
theorem pre_arg1 : after (hostOps0 (F := Ideal)) B (Proc.devRef .tc main_arg1) = B (Proc.devRef .tc main_arg1) := by
  simp only [hostOps0]; after_results_simp <;> rfl
set_option maxHeartbeats 2000000 in
theorem pre_arg3 : after (hostOps0 (F := Ideal)) B (Proc.devRef .tc main_arg3) = B (Proc.devRef .tc main_arg3) := by
  simp only [hostOps0]; after_results_simp <;> rfl
set_option maxHeartbeats 2000000 in
theorem pre_arg5 : after (hostOps0 (F := Ideal)) B (Proc.devRef .tc main_arg5) = B (Proc.devRef .tc main_arg5) := by
  simp only [hostOps0]; after_results_simp <;> rfl
set_option maxHeartbeats 2000000 in
theorem pre_arg7 : after (hostOps0 (F := Ideal)) B (Proc.devRef .tc main_arg7) = B (Proc.devRef .tc main_arg7) := by
  simp only [hostOps0]; after_results_simp <;> rfl
set_option maxHeartbeats 2000000 in
theorem pre_arg8 : after (hostOps0 (F := Ideal)) B (Proc.devRef .tc main_arg8) = B (Proc.devRef .tc main_arg8) := by
  simp only [hostOps0]; after_results_simp <;> rfl
set_option maxHeartbeats 2000000 in
theorem pre_arg9 : after (hostOps0 (F := Ideal)) B (Proc.devRef .tc main_arg9) = B (Proc.devRef .tc main_arg9) := by
  simp only [hostOps0]; after_results_simp <;> rfl
set_option maxHeartbeats 2000000 in
theorem pre_arg10 : after (hostOps0 (F := Ideal)) B (Proc.devRef .tc main_arg10) = B (Proc.devRef .tc main_arg10) := by
  simp only [hostOps0]; after_results_simp <;> rfl

/-! ### `hostOps1` over any starting contents -/

set_option maxHeartbeats 2000000 in
theorem take0_v35 : after (hostOps1 (F := Ideal)) B (Proc.devRef .tc main_v35) = takeFill (B (Proc.devRef .tc main_v34)) (B (Proc.devRef .tc main_arg7)) := by
  rw [hostOps1_eq]; simp only [takeOps0]; after_results_simp
  simp only [toBuf_self, ofBuf_self]
  unfold takeFill rowMask wrapIdx
  rfl
set_option maxHeartbeats 2000000 in
theorem take0_arg8 : after (hostOps1 (F := Ideal)) B (Proc.devRef .tc main_arg8) = B (Proc.devRef .tc main_arg8) := by
  simp only [hostOps1]; after_results_simp <;> rfl
set_option maxHeartbeats 2000000 in
theorem take0_v14 : after (hostOps1 (F := Ideal)) B (Proc.devRef .tc main_v14) = B (Proc.devRef .tc main_v14) := by
  simp only [hostOps1]; after_results_simp <;> rfl
set_option maxHeartbeats 2000000 in
theorem take0_v25 : after (hostOps1 (F := Ideal)) B (Proc.devRef .tc main_v25) = B (Proc.devRef .tc main_v25) := by
  simp only [hostOps1]; after_results_simp <;> rfl
set_option maxHeartbeats 2000000 in
theorem take0_v31 : after (hostOps1 (F := Ideal)) B (Proc.devRef .tc main_v31) = B (Proc.devRef .tc main_v31) := by
  simp only [hostOps1]; after_results_simp <;> rfl
set_option maxHeartbeats 2000000 in
theorem take0_arg5 : after (hostOps1 (F := Ideal)) B (Proc.devRef .tc main_arg5) = B (Proc.devRef .tc main_arg5) := by
  simp only [hostOps1]; after_results_simp <;> rfl
set_option maxHeartbeats 2000000 in
theorem take0_arg9 : after (hostOps1 (F := Ideal)) B (Proc.devRef .tc main_arg9) = B (Proc.devRef .tc main_arg9) := by
  simp only [hostOps1]; after_results_simp <;> rfl
set_option maxHeartbeats 2000000 in
theorem take0_arg10 : after (hostOps1 (F := Ideal)) B (Proc.devRef .tc main_arg10) = B (Proc.devRef .tc main_arg10) := by
  simp only [hostOps1]; after_results_simp <;> rfl
set_option maxHeartbeats 2000000 in
theorem take0_v29 : after (hostOps1 (F := Ideal)) B (Proc.devRef .tc main_v29) = B (Proc.devRef .tc main_v29) := by
  simp only [hostOps1]; after_results_simp <;> rfl
set_option maxHeartbeats 2000000 in
theorem take0_v32 : after (hostOps1 (F := Ideal)) B (Proc.devRef .tc main_v32) = B (Proc.devRef .tc main_v32) := by
  simp only [hostOps1]; after_results_simp <;> rfl

/-! ### `hostOps1_1` over any starting contents -/

set_option maxHeartbeats 2000000 in
theorem mid0_v38 : after (hostOps1_1 (F := Ideal)) B (Proc.devRef .tc main_v38) = Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (B (Proc.devRef .tc main_arg8))) (B (Proc.devRef .tc main_v35)) := by
  simp only [hostOps1_1]; after_results_simp <;> rfl
set_option maxHeartbeats 2000000 in
theorem mid0_v39 : after (hostOps1_1 (F := Ideal)) B (Proc.devRef .tc main_v39) = asCol (B (Proc.devRef .tc main_v14)) := by
  simp only [hostOps1_1]; after_results_simp <;> rfl
set_option maxHeartbeats 2000000 in
theorem mid0_v40 : after (hostOps1_1 (F := Ideal)) B (Proc.devRef .tc main_v40) = asCol (B (Proc.devRef .tc main_v25)) := by
  simp only [hostOps1_1]; after_results_simp <;> rfl
set_option maxHeartbeats 2000000 in
theorem mid0_v31 : after (hostOps1_1 (F := Ideal)) B (Proc.devRef .tc main_v31) = B (Proc.devRef .tc main_v31) := by
  simp only [hostOps1_1]; after_results_simp <;> rfl
set_option maxHeartbeats 2000000 in
theorem mid0_arg5 : after (hostOps1_1 (F := Ideal)) B (Proc.devRef .tc main_arg5) = B (Proc.devRef .tc main_arg5) := by
  simp only [hostOps1_1]; after_results_simp <;> rfl
set_option maxHeartbeats 2000000 in
theorem mid0_arg9 : after (hostOps1_1 (F := Ideal)) B (Proc.devRef .tc main_arg9) = B (Proc.devRef .tc main_arg9) := by
  simp only [hostOps1_1]; after_results_simp <;> rfl
set_option maxHeartbeats 2000000 in
theorem mid0_arg10 : after (hostOps1_1 (F := Ideal)) B (Proc.devRef .tc main_arg10) = B (Proc.devRef .tc main_arg10) := by
  simp only [hostOps1_1]; after_results_simp <;> rfl
set_option maxHeartbeats 2000000 in
theorem mid0_v29 : after (hostOps1_1 (F := Ideal)) B (Proc.devRef .tc main_v29) = B (Proc.devRef .tc main_v29) := by
  simp only [hostOps1_1]; after_results_simp <;> rfl
set_option maxHeartbeats 2000000 in
theorem mid0_v32 : after (hostOps1_1 (F := Ideal)) B (Proc.devRef .tc main_v32) = B (Proc.devRef .tc main_v32) := by
  simp only [hostOps1_1]; after_results_simp <;> rfl

/-! ### `hostOps2` over any starting contents -/

set_option maxHeartbeats 2000000 in
theorem take1_v42 : after (hostOps2 (F := Ideal)) B (Proc.devRef .tc main_v42) = takeFill (B (Proc.devRef .tc main_v41)) (B (Proc.devRef .tc main_arg9)) := by
  rw [hostOps2_eq]; simp only [takeOps1]; after_results_simp
  simp only [toBuf_self, ofBuf_self]
  unfold takeFill rowMask wrapIdx
  rfl
set_option maxHeartbeats 2000000 in
theorem take1_arg10 : after (hostOps2 (F := Ideal)) B (Proc.devRef .tc main_arg10) = B (Proc.devRef .tc main_arg10) := by
  simp only [hostOps2]; after_results_simp <;> rfl
set_option maxHeartbeats 2000000 in
theorem take1_v29 : after (hostOps2 (F := Ideal)) B (Proc.devRef .tc main_v29) = B (Proc.devRef .tc main_v29) := by
  simp only [hostOps2]; after_results_simp <;> rfl
set_option maxHeartbeats 2000000 in
theorem take1_v32 : after (hostOps2 (F := Ideal)) B (Proc.devRef .tc main_v32) = B (Proc.devRef .tc main_v32) := by
  simp only [hostOps2]; after_results_simp <;> rfl

/-! ### `hostOps2_1` over any starting contents -/

set_option maxHeartbeats 2000000 in
theorem mid1_v45 : after (hostOps2_1 (F := Ideal)) B (Proc.devRef .tc main_v45) = Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (B (Proc.devRef .tc main_arg10))) (B (Proc.devRef .tc main_v42)) := by
  simp only [hostOps2_1]; after_results_simp <;> rfl
set_option maxHeartbeats 2000000 in
theorem mid1_v46 : after (hostOps2_1 (F := Ideal)) B (Proc.devRef .tc main_v46) = asCol (B (Proc.devRef .tc main_v29)) := by
  simp only [hostOps2_1]; after_results_simp <;> rfl
set_option maxHeartbeats 2000000 in
theorem mid1_v32 : after (hostOps2_1 (F := Ideal)) B (Proc.devRef .tc main_v32) = B (Proc.devRef .tc main_v32) := by
  simp only [hostOps2_1]; after_results_simp <;> rfl

/-! ## The kernel program's values, stage by stage, from the launch memory -/

variable (m : (ℓ : Loc nD τ sig) → Buf (Elt Ideal) ℓ) (ρ : Dev nD → PrngReg)

/-- What the first dense stage leaves: the scaled embedding times the first layer's weights. -/
def premat1 (c : Dev nD) : Mat 100000 128 :=
  embedScale (m ((c : Thread nD τ).loc main_arg0)) (m ((c : Thread nD τ).loc main_arg1)) (asRow (m ((c : Thread nD τ).loc main_arg2))) (asCol (degWeight (m ((c : Thread nD τ).loc main_arg7)))) (m ((c : Thread nD τ).loc main_arg3))
/-- The first layer's messages summed at their destinations. -/
def agg1 (c : Dev nD) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (m ((c : Thread nD τ).loc main_arg8))) (takeFill (premat1 m c) (m ((c : Thread nD τ).loc main_arg7)))
/-- What the second dense stage leaves. -/
def premat2 (c : Dev nD) : Mat 100000 128 :=
  reluScale (agg1 m c) (asCol (degWeight (m ((c : Thread nD τ).loc main_arg8)))) (asRow (m ((c : Thread nD τ).loc main_arg4))) (asCol (degWeight (m ((c : Thread nD τ).loc main_arg9)))) (m ((c : Thread nD τ).loc main_arg5))
/-- The second layer's messages summed at their destinations. -/
def agg2 (c : Dev nD) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (m ((c : Thread nD τ).loc main_arg10))) (takeFill (premat2 m c) (m ((c : Thread nD τ).loc main_arg9)))
/-- The program's result. -/
def result (c : Dev nD) : Mat 100000 128 :=
  reluOut (agg2 m c) (asCol (degWeight (m ((c : Thread nD τ).loc main_arg10)))) (asRow (m ((c : Thread nD τ).loc main_arg6)))

/-! ### After the first stretch of host operations -/

theorem W1_v30 (c : Dev nD) : W1 m ρ c (Proc.devRef .tc main_v30) = asRow (m ((c : Thread nD τ).loc main_arg2)) :=
  pre_v30 (W0 m ρ c)
theorem W1_v31 (c : Dev nD) : W1 m ρ c (Proc.devRef .tc main_v31) = asRow (m ((c : Thread nD τ).loc main_arg4)) :=
  pre_v31 (W0 m ρ c)
theorem W1_v32 (c : Dev nD) : W1 m ρ c (Proc.devRef .tc main_v32) = asRow (m ((c : Thread nD τ).loc main_arg6)) :=
  pre_v32 (W0 m ρ c)
theorem W1_v33 (c : Dev nD) : W1 m ρ c (Proc.devRef .tc main_v33) = asCol (degWeight (m ((c : Thread nD τ).loc main_arg7))) :=
  pre_v33 (W0 m ρ c)
theorem W1_v14 (c : Dev nD) : W1 m ρ c (Proc.devRef .tc main_v14) = degWeight (m ((c : Thread nD τ).loc main_arg8)) :=
  pre_v14 (W0 m ρ c)
theorem W1_v25 (c : Dev nD) : W1 m ρ c (Proc.devRef .tc main_v25) = degWeight (m ((c : Thread nD τ).loc main_arg9)) :=
  pre_v25 (W0 m ρ c)
theorem W1_v29 (c : Dev nD) : W1 m ρ c (Proc.devRef .tc main_v29) = degWeight (m ((c : Thread nD τ).loc main_arg10)) :=
  pre_v29 (W0 m ρ c)
theorem W1_arg0 (c : Dev nD) : W1 m ρ c (Proc.devRef .tc main_arg0) = m ((c : Thread nD τ).loc main_arg0) :=
  pre_arg0 (W0 m ρ c)
theorem W1_arg1 (c : Dev nD) : W1 m ρ c (Proc.devRef .tc main_arg1) = m ((c : Thread nD τ).loc main_arg1) :=
  pre_arg1 (W0 m ρ c)
theorem W1_arg3 (c : Dev nD) : W1 m ρ c (Proc.devRef .tc main_arg3) = m ((c : Thread nD τ).loc main_arg3) :=
  pre_arg3 (W0 m ρ c)
theorem W1_arg5 (c : Dev nD) : W1 m ρ c (Proc.devRef .tc main_arg5) = m ((c : Thread nD τ).loc main_arg5) :=
  pre_arg5 (W0 m ρ c)
theorem W1_arg7 (c : Dev nD) : W1 m ρ c (Proc.devRef .tc main_arg7) = m ((c : Thread nD τ).loc main_arg7) :=
  pre_arg7 (W0 m ρ c)
theorem W1_arg8 (c : Dev nD) : W1 m ρ c (Proc.devRef .tc main_arg8) = m ((c : Thread nD τ).loc main_arg8) :=
  pre_arg8 (W0 m ρ c)
theorem W1_arg9 (c : Dev nD) : W1 m ρ c (Proc.devRef .tc main_arg9) = m ((c : Thread nD τ).loc main_arg9) :=
  pre_arg9 (W0 m ρ c)
theorem W1_arg10 (c : Dev nD) : W1 m ρ c (Proc.devRef .tc main_arg10) = m ((c : Thread nD τ).loc main_arg10) :=
  pre_arg10 (W0 m ρ c)

/-! ### After the first dense stage -/

theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v14 (c : Dev nD) : W2 m ρ c (Proc.devRef .tc main_v14) = degWeight (m ((c : Thread nD τ).loc main_arg8)) :=
  (W2_of_ne m ρ c main_v14 (by decide)).trans (W1_v14 m ρ c)
theorem W2_v25 (c : Dev nD) : W2 m ρ c (Proc.devRef .tc main_v25) = degWeight (m ((c : Thread nD τ).loc main_arg9)) :=
  (W2_of_ne m ρ c main_v25 (by decide)).trans (W1_v25 m ρ c)
theorem W2_v31 (c : Dev nD) : W2 m ρ c (Proc.devRef .tc main_v31) = asRow (m ((c : Thread nD τ).loc main_arg4)) :=
  (W2_of_ne m ρ c main_v31 (by decide)).trans (W1_v31 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_v29 (c : Dev nD) : W2 m ρ c (Proc.devRef .tc main_v29) = degWeight (m ((c : Thread nD τ).loc main_arg10)) :=
  (W2_of_ne m ρ c main_v29 (by decide)).trans (W1_v29 m ρ c)
theorem W2_v32 (c : Dev nD) : W2 m ρ c (Proc.devRef .tc main_v32) = asRow (m ((c : Thread nD τ).loc main_arg6)) :=
  (W2_of_ne m ρ c main_v32 (by decide)).trans (W1_v32 m ρ c)
theorem W2_v34 (c : Dev nD) : W2 m ρ c (Proc.devRef .tc main_v34) = premat1 m c :=
  (W2_arr m ρ c 5).trans ((Region0.final0 (V1 m ρ) c).trans (by
    show embedScale (W1 m ρ c (Proc.devRef .tc main_arg0)) (W1 m ρ c (Proc.devRef .tc main_arg1)) (W1 m ρ c (Proc.devRef .tc main_v30)) (W1 m ρ c (Proc.devRef .tc main_v33)) (W1 m ρ c (Proc.devRef .tc main_arg3)) = _
    unfold premat1
    rw [W1_arg0 m ρ c, W1_arg1 m ρ c, W1_v30 m ρ c, W1_v33 m ρ c, W1_arg3 m ρ c]))

/-! ### After the first gather -/

theorem W3_arg8 (c : Dev nD) : W3 m ρ c (Proc.devRef .tc main_arg8) = m ((c : Thread nD τ).loc main_arg8) :=
  (take0_arg8 (W2 m ρ c)).trans (W2_arg8 m ρ c)
theorem W3_v14 (c : Dev nD) : W3 m ρ c (Proc.devRef .tc main_v14) = degWeight (m ((c : Thread nD τ).loc main_arg8)) :=
  (take0_v14 (W2 m ρ c)).trans (W2_v14 m ρ c)
theorem W3_v25 (c : Dev nD) : W3 m ρ c (Proc.devRef .tc main_v25) = degWeight (m ((c : Thread nD τ).loc main_arg9)) :=
  (take0_v25 (W2 m ρ c)).trans (W2_v25 m ρ c)
theorem W3_v31 (c : Dev nD) : W3 m ρ c (Proc.devRef .tc main_v31) = asRow (m ((c : Thread nD τ).loc main_arg4)) :=
  (take0_v31 (W2 m ρ c)).trans (W2_v31 m ρ c)
theorem W3_arg5 (c : Dev nD) : W3 m ρ c (Proc.devRef .tc main_arg5) = m ((c : Thread nD τ).loc main_arg5) :=
  (take0_arg5 (W2 m ρ c)).trans (W2_arg5 m ρ c)
theorem W3_arg9 (c : Dev nD) : W3 m ρ c (Proc.devRef .tc main_arg9) = m ((c : Thread nD τ).loc main_arg9) :=
  (take0_arg9 (W2 m ρ c)).trans (W2_arg9 m ρ c)
theorem W3_arg10 (c : Dev nD) : W3 m ρ c (Proc.devRef .tc main_arg10) = m ((c : Thread nD τ).loc main_arg10) :=
  (take0_arg10 (W2 m ρ c)).trans (W2_arg10 m ρ c)
theorem W3_v29 (c : Dev nD) : W3 m ρ c (Proc.devRef .tc main_v29) = degWeight (m ((c : Thread nD τ).loc main_arg10)) :=
  (take0_v29 (W2 m ρ c)).trans (W2_v29 m ρ c)
theorem W3_v32 (c : Dev nD) : W3 m ρ c (Proc.devRef .tc main_v32) = asRow (m ((c : Thread nD τ).loc main_arg6)) :=
  (take0_v32 (W2 m ρ c)).trans (W2_v32 m ρ c)
theorem W3_v35 (c : Dev nD) : W3 m ρ c (Proc.devRef .tc main_v35) = takeFill (premat1 m c) (m ((c : Thread nD τ).loc main_arg7)) :=
  (take0_v35 (W2 m ρ c)).trans (by rw [W2_v34 m ρ c, W2_arg7 m ρ c])

/-! ### After the first scatter: the second dense stage's inputs -/

theorem W4_v31 (c : Dev nD) : W4 m ρ c (Proc.devRef .tc main_v31) = asRow (m ((c : Thread nD τ).loc main_arg4)) :=
  (mid0_v31 (W3 m ρ c)).trans (W3_v31 m ρ c)
theorem W4_arg5 (c : Dev nD) : W4 m ρ c (Proc.devRef .tc main_arg5) = m ((c : Thread nD τ).loc main_arg5) :=
  (mid0_arg5 (W3 m ρ c)).trans (W3_arg5 m ρ c)
theorem W4_arg9 (c : Dev nD) : W4 m ρ c (Proc.devRef .tc main_arg9) = m ((c : Thread nD τ).loc main_arg9) :=
  (mid0_arg9 (W3 m ρ c)).trans (W3_arg9 m ρ c)
theorem W4_arg10 (c : Dev nD) : W4 m ρ c (Proc.devRef .tc main_arg10) = m ((c : Thread nD τ).loc main_arg10) :=
  (mid0_arg10 (W3 m ρ c)).trans (W3_arg10 m ρ c)
theorem W4_v29 (c : Dev nD) : W4 m ρ c (Proc.devRef .tc main_v29) = degWeight (m ((c : Thread nD τ).loc main_arg10)) :=
  (mid0_v29 (W3 m ρ c)).trans (W3_v29 m ρ c)
theorem W4_v32 (c : Dev nD) : W4 m ρ c (Proc.devRef .tc main_v32) = asRow (m ((c : Thread nD τ).loc main_arg6)) :=
  (mid0_v32 (W3 m ρ c)).trans (W3_v32 m ρ c)
theorem W4_v38 (c : Dev nD) : W4 m ρ c (Proc.devRef .tc main_v38) = agg1 m c :=
  (mid0_v38 (W3 m ρ c)).trans (by unfold agg1; rw [W3_arg8 m ρ c, W3_v35 m ρ c])
theorem W4_v39 (c : Dev nD) : W4 m ρ c (Proc.devRef .tc main_v39) = asCol (degWeight (m ((c : Thread nD τ).loc main_arg8))) :=
  (mid0_v39 (W3 m ρ c)).trans (by rw [W3_v14 m ρ c])
theorem W4_v40 (c : Dev nD) : W4 m ρ c (Proc.devRef .tc main_v40) = asCol (degWeight (m ((c : Thread nD τ).loc main_arg9))) :=
  (mid0_v40 (W3 m ρ c)).trans (by rw [W3_v25 m ρ c])

/-! ### After the second dense stage -/

theorem W5_arg9 (c : Dev nD) : W5 m ρ c (Proc.devRef .tc main_arg9) = m ((c : Thread nD τ).loc main_arg9) :=
  (W5_of_ne m ρ c main_arg9 (by decide)).trans (W4_arg9 m ρ c)
theorem W5_arg10 (c : Dev nD) : W5 m ρ c (Proc.devRef .tc main_arg10) = m ((c : Thread nD τ).loc main_arg10) :=
  (W5_of_ne m ρ c main_arg10 (by decide)).trans (W4_arg10 m ρ c)
theorem W5_v29 (c : Dev nD) : W5 m ρ c (Proc.devRef .tc main_v29) = degWeight (m ((c : Thread nD τ).loc main_arg10)) :=
  (W5_of_ne m ρ c main_v29 (by decide)).trans (W4_v29 m ρ c)
theorem W5_v32 (c : Dev nD) : W5 m ρ c (Proc.devRef .tc main_v32) = asRow (m ((c : Thread nD τ).loc main_arg6)) :=
  (W5_of_ne m ρ c main_v32 (by decide)).trans (W4_v32 m ρ c)
theorem W5_v41 (c : Dev nD) : W5 m ρ c (Proc.devRef .tc main_v41) = premat2 m c :=
  (W5_arr m ρ c 5).trans ((Region1.final1 (V4 m ρ) c).trans (by
    show reluScale (W4 m ρ c (Proc.devRef .tc main_v38)) (W4 m ρ c (Proc.devRef .tc main_v39)) (W4 m ρ c (Proc.devRef .tc main_v31)) (W4 m ρ c (Proc.devRef .tc main_v40)) (W4 m ρ c (Proc.devRef .tc main_arg5)) = _
    unfold premat2
    rw [W4_v38 m ρ c, W4_v39 m ρ c, W4_v31 m ρ c, W4_v40 m ρ c, W4_arg5 m ρ c]))

/-! ### After the second gather -/

theorem W6_arg10 (c : Dev nD) : W6 m ρ c (Proc.devRef .tc main_arg10) = m ((c : Thread nD τ).loc main_arg10) :=
  (take1_arg10 (W5 m ρ c)).trans (W5_arg10 m ρ c)
theorem W6_v29 (c : Dev nD) : W6 m ρ c (Proc.devRef .tc main_v29) = degWeight (m ((c : Thread nD τ).loc main_arg10)) :=
  (take1_v29 (W5 m ρ c)).trans (W5_v29 m ρ c)
theorem W6_v32 (c : Dev nD) : W6 m ρ c (Proc.devRef .tc main_v32) = asRow (m ((c : Thread nD τ).loc main_arg6)) :=
  (take1_v32 (W5 m ρ c)).trans (W5_v32 m ρ c)
theorem W6_v42 (c : Dev nD) : W6 m ρ c (Proc.devRef .tc main_v42) = takeFill (premat2 m c) (m ((c : Thread nD τ).loc main_arg9)) :=
  (take1_v42 (W5 m ρ c)).trans (by rw [W5_v41 m ρ c, W5_arg9 m ρ c])

/-! ### After the second scatter: the last dense stage's inputs -/

theorem W7_v32 (c : Dev nD) : W7 m ρ c (Proc.devRef .tc main_v32) = asRow (m ((c : Thread nD τ).loc main_arg6)) :=
  (mid1_v32 (W6 m ρ c)).trans (W6_v32 m ρ c)
theorem W7_v45 (c : Dev nD) : W7 m ρ c (Proc.devRef .tc main_v45) = agg2 m c :=
  (mid1_v45 (W6 m ρ c)).trans (by unfold agg2; rw [W6_arg10 m ρ c, W6_v42 m ρ c])
theorem W7_v46 (c : Dev nD) : W7 m ρ c (Proc.devRef .tc main_v46) = asCol (degWeight (m ((c : Thread nD τ).loc main_arg10))) :=
  (mid1_v46 (W6 m ρ c)).trans (by rw [W6_v29 m ρ c])

/-! ### The result buffer at the end -/

theorem W8_v47 (c : Dev nD) : W8 m ρ c (Proc.devRef .tc main_v47) = result m c :=
  (W8_arr m ρ c 3).trans ((Region2.final2 (V7 m ρ) c).trans (by
    show reluOut (W7 m ρ c (Proc.devRef .tc main_v45)) (W7 m ρ c (Proc.devRef .tc main_v46)) (W7 m ρ c (Proc.devRef .tc main_v32)) = _
    unfold result
    rw [W7_v45 m ρ c, W7_v46 m ρ c, W7_v32 m ρ c]))

end Cert.KernelIdeal.Value

end
-- ==== Proof.RefForms.lean ====
import proofs.«429442_j68942815035830_3_alg».proof.Proof.Gen.ReferenceIdeal.Read
import proofs.«429442_j68942815035830_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Forms

open Cert.ReferenceIdeal Cert.ReferenceIdeal.Gen Cert.GcnSpec
open Idealize.ShloMosaic Idealize.ShloMosaic.TcCoe Idealize.ShloMosaic.ValueIdx

/-! ## The reference's operations read at an index -/

/-- The contraction over 256: entry `i` is the sum over `l` of `x[i₀, l] · We[l, i₁]`. -/
theorem dot256_apply (x : FVec Ideal S100000x256 .f32) (We : FVec Ideal S256x128 .f32) (i : S100000x128.Idx) :
    Host.dotGeneral (F := Ideal) dot_S100000x256_S256x128_S100000x128_1_0_0_1_n_n none x We i
      = ∑ l : Fin 256, x (Read.lidx_main_v0 i l) * We (Read.ridx_main_v0 i l) := by
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx i ((ValueIdx.contrEquiv1 dot_S100000x256_S256x128_S100000x128_1_0_0_1_n_n 256 rfl rfl).symm k) = Read.lidx_main_v0 i k := funext fun a => Fin.ext (by
    match a with
    | ⟨0, _⟩ => exact Read.lhs_main_v0_0 _ _
    | ⟨1, _⟩ => exact (Read.lhs_main_v0_1 _ _).trans hk)
  have er : dot_S100000x256_S256x128_S100000x128_1_0_0_1_n_n.rhsIdx i ((ValueIdx.contrEquiv1 dot_S100000x256_S256x128_S100000x128_1_0_0_1_n_n 256 rfl rfl).symm k) = Read.ridx_main_v0 i k := funext fun a => Fin.ext (by
    match a with
    | ⟨0, _⟩ => exact (Read.rhs_main_v0_0 _ _).trans hk
    | ⟨1, _⟩ => exact Read.rhs_main_v0_1 _ _)
  rw [el, er]

/-- The contraction over 128: entry `i` is the sum over `k` of `y[i₀, k] · W[k, i₁]`. -/
theorem dot128_apply (y : FVec Ideal S100000x128 .f32) (W : FVec Ideal S128x128 .f32) (i : S100000x128.Idx) :
    Host.dotGeneral (F := Ideal) dot_S100000x128_S128x128_S100000x128_1_0_0_1_n_n none y W i
      = ∑ k : Fin 128, y (Read.lidx_main_v22 i k) * W (Read.ridx_main_v22 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Read.lidx_main_v22 i k := funext fun a => Fin.ext (by
    match a with
    | ⟨0, _⟩ => exact Read.lhs_main_v22_0 _ _
    | ⟨1, _⟩ => exact (Read.lhs_main_v22_1 _ _).trans hk)
  have er : dot_S100000x128_S128x128_S100000x128_1_0_0_1_n_n.rhsIdx i ((ValueIdx.contrEquiv1 dot_S100000x128_S128x128_S100000x128_1_0_0_1_n_n 128 rfl rfl).symm k) = Read.ridx_main_v22 i k := funext fun a => Fin.ext (by
    match a with
    | ⟨0, _⟩ => exact (Read.rhs_main_v22_0 _ _).trans hk
    | ⟨1, _⟩ => exact Read.rhs_main_v22_1 _ _)
  rw [el, er]

/-- A one-row matrix broadcast down the rows: entry `i` is the row's entry at column `i₁`. -/
theorem bcast_row_apply (b : FVec Ideal S1x128 .f32) (i : S100000x128.Idx) :
    broadcastInDim S100000x128 ![0, 1] bcast_S1x128_S100000x128_0_1 b i = b (Read.idx_main_v2 i) :=
  broadcastInDim_apply _ bcast_S1x128_S100000x128_0_1 b i (Read.idx_main_v2 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A one-column matrix broadcast across the columns: entry `i` is the column's entry at row `i₀`. -/
theorem bcast_col_apply (n : FVec Ideal S100000x1 .f32) (i : S100000x128.Idx) :
    broadcastInDim S100000x128 ![0, 1] bcast_S100000x1_S100000x128_0_1 n i = n (Read.idx_main_v20 i) :=
  broadcastInDim_apply _ bcast_S100000x1_S100000x128_0_1 n i (Read.idx_main_v20 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The scalar zero broadcast to the whole matrix: every entry is `0`. -/
theorem bcast_zero_apply (i : S100000x128.Idx) :
    broadcastInDim S100000x128 ![] bcast_S_S100000x128 (constant (F := Ideal) S_ .f32 0x00000000#32) i = (0 : EReal) := by
  rw [broadcastInDim_apply _ bcast_S_S100000x128 (constant (F := Ideal) S_ .f32 0x00000000#32) i (fun a => a.elim0) (fun a => a.elim0),
    constant_apply, Ideal.ofBits_zero_f32]

/-! ## The composed index maps are the specification's row and column constructors -/

theorem lidx22_eq (i : S100000x128.Idx) (k : Fin 128) : Read.lidx_main_v22 i k = ix2 (row i) k :=
  funext fun a => Fin.ext (by match a with | ⟨0, _⟩ => rfl | ⟨1, _⟩ => rfl)
theorem ridx22_eq (i : S100000x128.Idx) (k : Fin 128) : Read.ridx_main_v22 i k = ix2 k (col i) :=
  funext fun a => Fin.ext (by match a with | ⟨0, _⟩ => rfl | ⟨1, _⟩ => rfl)
theorem lidx0_eq (r : Fin 100000) (k : Fin 128) (l : Fin 256) : Read.lidx_main_v0 (ix2 r k) l = ix2 r l :=
  funext fun a => Fin.ext (by match a with | ⟨0, _⟩ => rfl | ⟨1, _⟩ => rfl)
theorem ridx0_eq (r : Fin 100000) (k : Fin 128) (l : Fin 256) : Read.ridx_main_v0 (ix2 r k) l = ix2 l k :=
  funext fun a => Fin.ext (by match a with | ⟨0, _⟩ => rfl | ⟨1, _⟩ => rfl)
theorem idx2_eq (r : Fin 100000) (k : Fin 128) : Read.idx_main_v2 (ix2 r k) = ix2 (0 : Fin 1) k :=
  funext fun a => Fin.ext (by match a with | ⟨0, _⟩ => rfl | ⟨1, _⟩ => rfl)
theorem idx20_eq (r : Fin 100000) (k : Fin 128) : Read.idx_main_v20 (ix2 r k) = ix2 r (0 : Fin 1) :=
  funext fun a => Fin.ext (by match a with | ⟨0, _⟩ => rfl | ⟨1, _⟩ => rfl)
theorem ix2_row_col (i : S100000x128.Idx) : ix2 (row i) (col i) = i :=
  funext fun a => Fin.ext (by match a with | ⟨0, _⟩ => rfl | ⟨1, _⟩ => rfl)

/-! ## The three stages -/

theorem embed_form (x : FVec Ideal S100000x256 .f32) (We : FVec Ideal S256x128 .f32) (be : FVec Ideal S1x128 .f32)
    (ns : FVec Ideal S100000x1 .f32) (W : FVec Ideal S128x128 .f32) :
    Host.dotGeneral (F := Ideal) dot_S100000x128_S128x128_S100000x128_1_0_0_1_n_n none
      (mulf (addf (Host.dotGeneral (F := Ideal) dot_S100000x256_S256x128_S100000x128_1_0_0_1_n_n none x We)
                  (broadcastInDim S100000x128 ![0, 1] bcast_S1x128_S100000x128_0_1 be))
            (broadcastInDim S100000x128 ![0, 1] bcast_S100000x1_S100000x128_0_1 ns)) W
    = embedScale x We be ns W := by
  funext i
  rw [dot128_apply]
  unfold embedScale
  refine Finset.sum_congr rfl fun k _ => ?_
  rw [lidx22_eq, ridx22_eq, mulf_apply, addf_apply, dot256_apply, bcast_row_apply, bcast_col_apply, idx2_eq, idx20_eq]
  unfold embedAt
  simp only [lidx0_eq, ridx0_eq]

theorem relu_scale_form (a : FVec Ideal S100000x128 .f32) (nd : FVec Ideal S100000x1 .f32) (b : FVec Ideal S1x128 .f32)
    (ns : FVec Ideal S100000x1 .f32) (W : FVec Ideal S128x128 .f32) :
    Host.dotGeneral (F := Ideal) dot_S100000x128_S128x128_S100000x128_1_0_0_1_n_n none
      (mulf (maximumf (addf (mulf a (broadcastInDim S100000x128 ![0, 1] bcast_S100000x1_S100000x128_0_1 nd))
                            (broadcastInDim S100000x128 ![0, 1] bcast_S1x128_S100000x128_0_1 b))
                      (broadcastInDim S100000x128 ![] bcast_S_S100000x128 (constant (F := Ideal) S_ .f32 0x00000000#32)))
            (broadcastInDim S100000x128 ![0, 1] bcast_S100000x1_S100000x128_0_1 ns)) W
    = reluScale a nd b ns W := by
  funext i
  rw [dot128_apply]
  unfold reluScale
  refine Finset.sum_congr rfl fun k _ => ?_
  rw [lidx22_eq, ridx22_eq, mulf_apply, maximumf_apply, addf_apply, mulf_apply, bcast_zero_apply, bcast_row_apply,
    bcast_col_apply nd, bcast_col_apply ns, idx2_eq, idx20_eq]
  rfl

theorem relu_out_form (a : FVec Ideal S100000x128 .f32) (nd : FVec Ideal S100000x1 .f32) (b : FVec Ideal S1x128 .f32) :
    maximumf (addf (mulf a (broadcastInDim S100000x128 ![0, 1] bcast_S100000x1_S100000x128_0_1 nd))
                   (broadcastInDim S100000x128 ![0, 1] bcast_S1x128_S100000x128_0_1 b))
             (broadcastInDim S100000x128 ![] bcast_S_S100000x128 (constant (F := Ideal) S_ .f32 0x00000000#32))
    = reluOut a nd b := by
  funext i
  rw [maximumf_apply, addf_apply, mulf_apply, bcast_zero_apply, bcast_row_apply, bcast_col_apply]
  unfold reluOut reluAt
  conv_lhs => rw [← ix2_row_col i]
  rw [idx2_eq, idx20_eq]

end Cert.ReferenceIdeal.Forms

end
-- ==== Proof.RefValue.lean ====
/-
  The reference program's result, stage by stage.  Its generated run states the result buffer as one composed term
  of the argument arrays; the three dense stretches of that term (two matrix products around the embedding's bias
  and degree scaling; a scaled, biased, clamped activation followed by a matrix product; the last activation) are
  the whole-array functions `embedScale`, `reluScale`, `reluOut`, and between them stand the gathers of source
  rows and the sums at destination rows.
-/
import proofs.«429442_j68942815035830_3_alg».proof.Proof.Gen.ReferenceIdeal.Run
import proofs.«429442_j68942815035830_3_alg».proof.Proof.RefForms
import proofs.«429442_j68942815035830_3_alg».proof.Proof.GcnSpec

set_option maxRecDepth 16384

noncomputable section

namespace Cert.ReferenceIdeal.RefValue

open Cert.ReferenceIdeal Cert.ReferenceIdeal.Gen Cert.ReferenceIdeal.Forms Cert.GcnSpec
open Idealize.ShloMosaic Idealize.ShloMosaic.TcCoe Idealize.SL.Sem

/-- A node's degree weight: the number of edges whose index word names the node, at least one, to the power -1/2. -/
def degWeight (idx : IVec S1600000 32) : FVec Ideal S100000 .f32 :=
  Host.powf
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- A weight vector as a one-column matrix. -/
abbrev asCol (w : FVec Ideal S100000 .f32) : FVec Ideal S100000x1 .f32 :=
  broadcastInDim S100000x1 ![0] bcast_S100000_S100000x1_0 w
/-- A bias vector as a one-row matrix. -/
abbrev asRow (b : FVec Ideal S128 .f32) : FVec Ideal S1x128 .f32 :=
  broadcastInDim S1x128 ![1] bcast_S128_S1x128_1 b

/-- Each index with a negative one counted from the end, as a one-column matrix. -/
def wrapIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

variable (m : (ℓ : Loc nD τ sig) → Buf (Elt Ideal) ℓ)

/-- The scaled embedding times the first layer's weights. -/
def premat1 (c : Dev nD) : Mat 100000 128 :=
  embedScale (m ((c.tc : Thread nD τ).loc main_arg0)) (m ((c.tc : Thread nD τ).loc main_arg1)) (asRow (m ((c.tc : Thread nD τ).loc main_arg2))) (asCol (degWeight (m ((c.tc : Thread nD τ).loc main_arg7)))) (m ((c.tc : Thread nD τ).loc main_arg3))
/-- The first layer's messages summed at their destinations. -/
def agg1 (c : Dev nD) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (m ((c.tc : Thread nD τ).loc main_arg8)))
    (Host.gather gather_S100000x128_S1600000x1_S1600000x128_1_0_n_n_0_1_1128 (premat1 m c) (wrapIdx (m ((c.tc : Thread nD τ).loc main_arg7))))
/-- The first layer's activation, scaled, times the second layer's weights. -/
def premat2 (c : Dev nD) : Mat 100000 128 :=
  reluScale (agg1 m c) (asCol (degWeight (m ((c.tc : Thread nD τ).loc main_arg8)))) (asRow (m ((c.tc : Thread nD τ).loc main_arg4))) (asCol (degWeight (m ((c.tc : Thread nD τ).loc main_arg9)))) (m ((c.tc : Thread nD τ).loc main_arg5))
/-- The second layer's messages summed at their destinations. -/
def agg2 (c : Dev nD) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (m ((c.tc : Thread nD τ).loc main_arg10)))
    (Host.gather gather_S100000x128_S1600000x1_S1600000x128_1_0_n_n_0_1_1128 (premat2 m c) (wrapIdx (m ((c.tc : Thread nD τ).loc main_arg9))))
/-- The program's result. -/
def result (c : Dev nD) : Mat 100000 128 :=
  reluOut (agg2 m c) (asCol (degWeight (m ((c.tc : Thread nD τ).loc main_arg10)))) (asRow (m ((c.tc : Thread nD τ).loc main_arg6)))

/-- The generated run's composed term is `result`: its three dense stretches are the three whole-array functions. -/
theorem res_eq (c : Dev nD) : Value.res_main_v75 (F := Ideal) m c = result m c := by
  unfold Value.res_main_v75 result agg2 premat2 agg1 premat1 degWeight wrapIdx
  rw [relu_out_form, relu_scale_form, embed_form]

end Cert.ReferenceIdeal.RefValue

end
-- ==== Proof.Bridge.lean ====
/-
  The two programs compute one function.  Stage by stage both are: the scaled embedding times the first layer's
  weights; rows gathered at the source indices and summed at the destination indices; the activation, scaled, times
  the second layer's weights; gather and sum again; the last activation.  The kernel program's gather writes a
  not-a-number row where a source index names no row, the reference's does not; with every source index in
  [0, 100000) no such row exists and the two gathers are one.  Everything else is the same operation on the same
  operands, so with the argument arrays agreeing the results are equal.
-/
import proofs.«429442_j68942815035830_3_alg».proof.Proof.KernelValue
import proofs.«429442_j68942815035830_3_alg».proof.Proof.RefValue
import proofs.«429442_j68942815035830_3_alg».proof.Proof.TakeInRange

set_option maxRecDepth 16384

noncomputable section

namespace Cert.Proof.Bridge

open Idealize.ShloMosaic Idealize.ShloMosaic.TcCoe Idealize.SL.Sem

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h7 : ∀ e : Cert.KernelIdeal.S1600000.Idx, IntOp.cmpi .sge (m ((c.tc : Thread Cert.KernelIdeal.nD Cert.KernelIdeal.τ).loc Cert.KernelIdeal.main_arg7) e) 0#32 = 1#1 ∧ IntOp.cmpi .slt (m ((c.tc : Thread Cert.KernelIdeal.nD Cert.KernelIdeal.τ).loc Cert.KernelIdeal.main_arg7) e) 100000#32 = 1#1)
    (h9 : ∀ e : Cert.KernelIdeal.S1600000.Idx, IntOp.cmpi .sge (m ((c.tc : Thread Cert.KernelIdeal.nD Cert.KernelIdeal.τ).loc Cert.KernelIdeal.main_arg9) e) 0#32 = 1#1 ∧ IntOp.cmpi .slt (m ((c.tc : Thread Cert.KernelIdeal.nD Cert.KernelIdeal.τ).loc Cert.KernelIdeal.main_arg9) e) 100000#32 = 1#1) :
    Cert.ReferenceIdeal.RefValue.result m' c = Cert.KernelIdeal.Value.result m c := by
  unfold Cert.ReferenceIdeal.RefValue.result Cert.ReferenceIdeal.RefValue.agg2 Cert.ReferenceIdeal.RefValue.premat2
    Cert.ReferenceIdeal.RefValue.agg1 Cert.ReferenceIdeal.RefValue.premat1
    Cert.KernelIdeal.Value.result Cert.KernelIdeal.Value.agg2 Cert.KernelIdeal.Value.premat2
    Cert.KernelIdeal.Value.agg1 Cert.KernelIdeal.Value.premat1
  rw [Cert.KernelIdeal.Take.takeFill_eq_gather _ _ h9, Cert.KernelIdeal.Take.takeFill_eq_gather _ _ h7]
  rw [e0, e1, e2, e3, e4, e5, e6, e7, e8, e9, e10]
  rfl

end Cert.Proof.Bridge

end
-- ==== Proof.lean ====
/-
  A two-layer graph convolution over 100000 nodes and 1600000 edges per layer: an embedding `x · We + be`, then
  twice "scale each row by its source-side degree weight, multiply by the layer's weights, gather the rows at the
  edges' source indices, sum them at the destination indices, scale by the destination-side degree weight, add the
  bias, clamp at zero".  The kernel program fuses the dense parts into three blocked stages (20 blocks of 5000 rows);
  the reference applies the same operations to whole arrays.  Over the extended reals the two compute the same array:

  * each blocked stage leaves its output array at one whole-array function of its input arrays (the block of rows
    a grid point writes is that function restricted to the block, and the 20 blocks cover the array);
  * the reference's matrix products, broadcasts and clamps are those same functions, index by index (a matrix
    product into a zero accumulator and the host's product are the same sum; a change of float format is the identity);
  * the degree weights, the gathers' index wrapping and the sums at destination rows are the same operations on the
    same operands in both programs;
  * the kernel program's gather fills a row with the not-a-number pattern where a source index names no row, the
    reference's gather does not: with every source index in [0, 100000), which the precondition states, no such row
    exists and the two gathers agree.

  The three frames are the generated ones (the reference's is its generated run with the result dropped), and the
  idealization rewrote nothing.
-/
import proofs.«429442_j68942815035830_3_alg».proof.Defs
import proofs.«429442_j68942815035830_3_alg».proof.Proof.Gen.Kernel
import proofs.«429442_j68942815035830_3_alg».proof.Proof.Gen.Kernel.Skeleton
import proofs.«429442_j68942815035830_3_alg».proof.Proof.Gen.Kernel.Launch
import proofs.«429442_j68942815035830_3_alg».proof.Proof.Gen.Kernel.Points
import proofs.«429442_j68942815035830_3_alg».proof.Proof.Gen.Kernel.Frame
import proofs.«429442_j68942815035830_3_alg».proof.Proof.Gen.KernelIdeal
import proofs.«429442_j68942815035830_3_alg».proof.Proof.Gen.KernelIdeal.Skeleton
import proofs.«429442_j68942815035830_3_alg».proof.Proof.Gen.KernelIdeal.Launch
import proofs.«429442_j68942815035830_3_alg».proof.Proof.Gen.KernelIdeal.Points
import proofs.«429442_j68942815035830_3_alg».proof.Proof.Gen.KernelIdeal.Frame
import proofs.«429442_j68942815035830_3_alg».proof.Proof.Gen.ReferenceIdeal
import proofs.«429442_j68942815035830_3_alg».proof.Proof.Gen.Pre_finite_inputs
import proofs.«429442_j68942815035830_3_alg».proof.Proof.Gen.ReferenceIdeal.Run
import proofs.«429442_j68942815035830_3_alg».proof.Proof.Gen.ReferenceIdeal.Read
import proofs.«429442_j68942815035830_3_alg».proof.Proof.KernelRun
import proofs.«429442_j68942815035830_3_alg».proof.Proof.KernelValue
import proofs.«429442_j68942815035830_3_alg».proof.Proof.RefValue
import proofs.«429442_j68942815035830_3_alg».proof.Proof.TakeInRange
import proofs.«429442_j68942815035830_3_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments: the generated frame. -/
theorem frame_k : Cert.frame_Kernel := fun m ρ _ => Cert.Kernel.Gen.frame m ρ
/-- The idealized kernel program runs and leaves its arguments: the generated frame. -/
theorem frame_ki : Cert.frame_KernelIdeal := fun m ρ _ => Cert.KernelIdeal.Gen.frame m ρ
/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the same array: the kernel
    program's run names its result (`Value.result`, read back through its stretches and stages), the reference's
    generated run names its own (`RefValue.result`), and under the precondition's index ranges the two are equal. -/
theorem algebraic : Cert.algebraic_KernelIdeal_ReferenceIdeal := by
  intro m ρ m' ρ' hpre hagree
  refine ⟨fun c => Cert.KernelIdeal.Value.result m c, ?_, ?_⟩
  · exact (θ_run (Cert.KernelIdeal.defs (F := Ideal)) _ _).mono
      (fun r h c => ⟨(h c).1.trans (Cert.KernelIdeal.Value.W8_v47 m ρ c), (h c).2⟩)
      (Cert.KernelIdeal.Gen.run_result (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    obtain ⟨h7, h9⟩ := Cert.KernelIdeal.Take.src_inrange_of_pre _ _ _ _ _ _ _ _ _ _ _ (hpre c)
    exact (Cert.ReferenceIdeal.RefValue.res_eq m' c).trans (Cert.Proof.Bridge.result_eq m m' c e0 e1 e2 e3 e4 e5 e6 e7 e8 e9 e10 h7 h9)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
